-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v34)) (v1 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S100000x128 : Shape := ⟨2, ![100000, 128]⟩
abbrev S128x1 : Shape := ⟨2, ![128, 1]⟩
abbrev S1 : Shape := ⟨1, ![1]⟩
abbrev S128x128 : Shape := ⟨2, ![128, 128]⟩
abbrev S128 : Shape := ⟨1, ![128]⟩
abbrev S256x256 : Shape := ⟨2, ![256, 256]⟩
abbrev S256 : Shape := ⟨1, ![256]⟩
abbrev S128x256 : Shape := ⟨2, ![128, 256]⟩
abbrev S1x128 : Shape := ⟨2, ![1, 128]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S1x128 : S_.BroadcastsInDim S1x128 (![] : Fin 0 → Fin S1x128.rank)
  reducesTo_S1x128_S_d0_1 : S1x128.ReducesTo [0, 1] S_

variable [Facts]

def fn_part5 {F : FTy → Type} [FloatOps F] (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  main_v88

def fn_part4 {F : FTy → Type} [FloatOps F] (main_arg16 : FVec F S128x256 .f32) (main_arg17 : FVec F S128 .f32) (main_arg18 : FVec F S1x128 .f32) (main_arg19 : FVec F S1 .f32) (main_v63 : IVec S_ 1) (main_v67 : IVec S_ 1) : IVec S_ 1 :=
  let main_v68 : IVec S_ 1 := andi main_v63 main_v67
  let main_v69 : FVec F S128x256 .f32 := Host.absf main_arg16
  let main_cst_26 : FVec F S_ .f32 := constant S_ .f32 0x7F800000#32
  let main_v70 : FVec F S128x256 .f32 := broadcastInDim S128x256 ![] bcast_S_S128x256 main_cst_26
  let main_v71 : IVec S128x256 1 := cmpf .olt main_v69 main_v70
  let main_c_27 : IVec S_ 1 := constantI S_ 1 1#1
  let main_v72 : IVec S_ 1 := (fun x v => Host.reduce IntOp.andi x v reducesTo_S128x256_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S1x128 .f32 := Host.absf main_arg18
  let main_cst_30 : FVec F S_ .f32 := constant S_ .f32 0x7F800000#32
  let main_v80 : FVec F S1x128 .f32 := broadcastInDim S1x128 ![] bcast_S_S1x128 main_cst_30
  let main_v81 : IVec S1x128 1 := cmpf .olt main_v79 main_v80
  let main_c_31 : IVec S_ 1 := constantI S_ 1 1#1
  let main_v82 : IVec S_ 1 := (fun x v => Host.reduce IntOp.andi x v reducesTo_S1x128_S_d0_1 h_S_) main_v81 main_c_31
  let main_v83 : IVec S_ 1 := andi main_v78 main_v82
  let main_v84 : FVec F S1 .f32 := Host.absf main_arg19
  let main_cst_32 : FVec F S_ .f32 := constant S_ .f32 0x7F800000#32
  fn_part5 (F := F) main_v83 main_v84 main_cst_32

def fn_part3 {F : FTy → Type} [FloatOps F] (main_arg13 : FVec F S128 .f32) (main_arg14 : FVec F S256x256 .f32) (main_arg15 : FVec F S256 .f32) (main_arg16 : FVec F S128x256 .f32) (main_arg17 : FVec F S128 .f32) (main_arg18 : FVec F S1x128 .f32) (main_arg19 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S256x256 .f32 := Host.absf main_arg14
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg15
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg16 main_arg17 main_arg18 main_arg19 main_v63 main_v67

def fn_part2 {F : FTy → Type} [FloatOps F] (main_arg9 : FVec F S128x1 .f32) (main_arg10 : FVec F S1 .f32) (main_arg11 : FVec F S1 .f32) (main_arg12 : FVec F S128x128 .f32) (main_arg13 : FVec F S128 .f32) (main_arg14 : FVec F S256x256 .f32) (main_arg15 : FVec F S256 .f32) (main_arg16 : FVec F S128x256 .f32) (main_arg17 : FVec F S128 .f32) (main_arg18 : FVec F S1x128 .f32) (main_arg19 : FVec F S1 .f32) (main_v33 : IVec S_ 1) : IVec S_ 1 :=
  let main_v34 : FVec F S128x1 .f32 := Host.absf main_arg9
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_arg16 main_arg17 main_arg18 main_arg19 main_v48 main_v49 main_v50

def fn_part1 {F : FTy → Type} [FloatOps F] (main_arg6 : FVec F S128x1 .f32) (main_arg7 : FVec F S128x1 .f32) (main_arg8 : FVec F S128x1 .f32) (main_arg9 : FVec F S128x1 .f32) (main_arg10 : FVec F S1 .f32) (main_arg11 : FVec F S1 .f32) (main_arg12 : FVec F S128x128 .f32) (main_arg13 : FVec F S128 .f32) (main_arg14 : FVec F S256x256 .f32) (main_arg15 : FVec F S256 .f32) (main_arg16 : FVec F S128x256 .f32) (main_arg17 : FVec F S128 .f32) (main_arg18 : FVec F S1x128 .f32) (main_arg19 : FVec F S1 .f32) (main_v13 : IVec S_ 1) (main_v16 : IVec S100000x128 1) : IVec S_ 1 :=
  let main_c_5 : IVec S_ 1 := constantI S_ 1 1#1
  let main_v17 : IVec S_ 1 := (fun x v => Host.reduce IntOp.andi x v reducesTo_S100000x128_S_d0_1 h_S_) main_v16 main_c_5
  let main_v18 : IVec S_ 1 := andi main_v13 main_v17
  let main_v19 : FVec F S128x1 .f32 := Host.absf main_arg6
  let main_cst_6 : FVec F S_ .f32 := constant S_ .f32 0x7F800000#32
  let main_v20 : FVec F S128x1 .f32 := broadcastInDim S128x1 ![] bcast_S_S128x1 main_cst_6
  let main_v21 : IVec S128x1 1 := cmpf .olt main_v19 main_v20
  let main_c_7 : IVec S_ 1 := constantI S_ 1 1#1
  let main_v22 : IVec S_ 1 := (fun x v => Host.reduce IntOp.andi x v reducesTo_S128x1_S_d0_1 h_S_) main_v21 main_c_7
  let main_v23 : IVec S_ 1 := andi main_v18 main_v22
  let main_v24 : FVec F S128x1 .f32 := Host.absf main_arg7
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S128x1 .f32 := Host.absf main_arg8
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_v33

def fn {F : FTy → Type} [FloatOps F] (main_arg0 : IVec S16384 32) (main_arg1 : IVec S16384 32) (main_arg2 : FVec F S16384 .f32) (main_arg3 : FVec F S100000x128 .f32) (main_arg4 : FVec F S100000x128 .f32) (main_arg5 : FVec F S100000x128 .f32) (main_arg6 : FVec F S128x1 .f32) (main_arg7 : FVec F S128x1 .f32) (main_arg8 : FVec F S128x1 .f32) (main_arg9 : FVec F S128x1 .f32) (main_arg10 : FVec F S1 .f32) (main_arg11 : FVec F S1 .f32) (main_arg12 : FVec F S128x128 .f32) (main_arg13 : FVec F S128 .f32) (main_arg14 : FVec F S256x256 .f32) (main_arg15 : FVec F S256 .f32) (main_arg16 : FVec F S128x256 .f32) (main_arg17 : FVec F S128 .f32) (main_arg18 : FVec F S1x128 .f32) (main_arg19 : FVec F S1 .f32) : IVec S_ 1 :=
  let main_v0 : FVec F S16384 .f32 := Host.absf main_arg2
  let main_cst : FVec F S_ .f32 := constant S_ .f32 0x7F800000#32
  let main_v1 : FVec F S16384 .f32 := broadcastInDim S16384 ![] bcast_S_S16384 main_cst
  let main_v2 : IVec S16384 1 := cmpf .olt main_v0 main_v1
  let main_c : IVec S_ 1 := constantI S_ 1 1#1
  let main_v3 : IVec S_ 1 := (fun x v => Host.reduce IntOp.andi x v reducesTo_S16384_S_d0 h_S_) main_v2 main_c
  let main_v4 : FVec F S100000x128 .f32 := Host.absf main_arg3
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S100000x128 .f32 := Host.absf main_arg4
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S100000x128 .f32 := Host.absf main_arg5
  let main_cst_4 : FVec F S_ .f32 := constant S_ .f32 0x7F800000#32
  let main_v15 : FVec F S100000x128 .f32 := broadcastInDim S100000x128 ![] bcast_S_S100000x128 main_cst_4
  let main_v16 : IVec S100000x128 1 := cmpf .olt main_v14 main_v15
  fn_part1 (F := F) main_arg6 main_arg7 main_arg8 main_arg9 main_arg10 main_arg11 main_arg12 main_arg13 main_arg14 main_arg15 main_arg16 main_arg17 main_arg18 main_arg19 main_v13 main_v16
-- ==== Kernel.lean ====
abbrev S16384 : Shape := ⟨1, ![16384]⟩
abbrev S100000x128 : Shape := ⟨2, ![100000, 128]⟩
abbrev S128x1 : Shape := ⟨2, ![128, 1]⟩
abbrev S1 : Shape := ⟨1, ![1]⟩
abbrev S128x128 : Shape := ⟨2, ![128, 128]⟩
abbrev S128 : Shape := ⟨1, ![128]⟩
abbrev S256x256 : Shape := ⟨2, ![256, 256]⟩
abbrev S256 : Shape := ⟨1, ![256]⟩
abbrev S128x256 : Shape := ⟨2, ![128, 256]⟩
abbrev S1x128 : Shape := ⟨2, ![1, 128]⟩
abbrev S_ : Shape := ⟨0, ![]⟩
abbrev S16384x1 : Shape := ⟨2, ![16384, 1]⟩
abbrev S16384x128 : Shape := ⟨2, ![16384, 128]⟩
abbrev S256x128 : Shape := ⟨2, ![256, 128]⟩
abbrev S1024x128 : Shape := ⟨2, ![1024, 128]⟩
abbrev S1024x1 : Shape := ⟨2, ![1024, 1]⟩
abbrev S1x1 : Shape := ⟨2, ![1, 1]⟩
abbrev S1024x256 : Shape := ⟨2, ![1024, 256]⟩
abbrev S1x256 : Shape := ⟨2, ![1, 256]⟩

abbrev nBuf : Space → Nat
  | .hbm => 61
  | .vmem => 22
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S16384, .f32⟩
  | .hbm, ⟨3, _⟩ => ⟨S100000x128, .f32⟩
  | .hbm, ⟨4, _⟩ => ⟨S100000x128, .f32⟩
  | .hbm, ⟨5, _⟩ => ⟨S100000x128, .f32⟩
  | .hbm, ⟨6, _⟩ => ⟨S128x1, .f32⟩
  | .hbm, ⟨7, _⟩ => ⟨S128x1, .f32⟩
  | .hbm, ⟨8, _⟩ => ⟨S128x1, .f32⟩
  | .hbm, ⟨9, _⟩ => ⟨S128x1, .f32⟩
  | .hbm, ⟨10, _⟩ => ⟨S1, .f32⟩
  | .hbm, ⟨11, _⟩ => ⟨S1, .f32⟩
  | .hbm, ⟨12, _⟩ => ⟨S128x128, .f32⟩
  | .hbm, ⟨13, _⟩ => ⟨S128, .f32⟩
  | .hbm, ⟨14, _⟩ => ⟨S256x256, .f32⟩
  | .hbm, ⟨15, _⟩ => ⟨S256, .f32⟩
  | .hbm, ⟨16, _⟩ => ⟨S128x256, .f32⟩
  | .hbm, ⟨17, _⟩ => ⟨S128, .f32⟩
  | .hbm, ⟨18, _⟩ => ⟨S1x128, .f32⟩
  | .hbm, ⟨19, _⟩ => ⟨S1, .f32⟩
  | .hbm, ⟨20, _⟩ => ⟨S_, .i32⟩
  | .hbm, ⟨21, _⟩ => ⟨S16384, .i32⟩
  | .hbm, ⟨22, _⟩ => ⟨S16384, .i1⟩
  | .hbm, ⟨23, _⟩ => ⟨S_, .i32⟩
  | .hbm, ⟨24, _⟩ => ⟨S16384, .i32⟩
  | .hbm, ⟨25, _⟩ => ⟨S16384, .i32⟩
  | .hbm, ⟨26, _⟩ => ⟨S16384, .i32⟩
  | .hbm, ⟨27, _⟩ => ⟨S16384x1, .i32⟩
  | .hbm, ⟨28, _⟩ => ⟨S16384x128, .f32⟩
  | .hbm, ⟨29, _⟩ => ⟨S_, .i32⟩
  | .hbm, ⟨30, _⟩ => ⟨S16384, .i32⟩
  | .hbm, ⟨31, _⟩ => ⟨S16384, .i1⟩
  | .hbm, ⟨32, _⟩ => ⟨S_, .i32⟩
  | .hbm, ⟨33, _⟩ => ⟨S16384, .i32⟩
  | .hbm, ⟨34, _⟩ => ⟨S16384, .i32⟩
  | .hbm, ⟨35, _⟩ => ⟨S16384, .i32⟩
  | .hbm, ⟨36, _⟩ => ⟨S16384x1, .i32⟩
  | .hbm, ⟨37, _⟩ => ⟨S16384x128, .f32⟩
  | .hbm, ⟨38, _⟩ => ⟨S_, .i32⟩
  | .hbm, ⟨39, _⟩ => ⟨S16384, .i32⟩
  | .hbm, ⟨40, _⟩ => ⟨S16384, .i1⟩
  | .hbm, ⟨41, _⟩ => ⟨S_, .i32⟩
  | .hbm, ⟨42, _⟩ => ⟨S16384, .i32⟩
  | .hbm, ⟨43, _⟩ => ⟨S16384, .i32⟩
  | .hbm, ⟨44, _⟩ => ⟨S16384, .i32⟩
  | .hbm, ⟨45, _⟩ => ⟨S16384x1, .i32⟩
  | .hbm, ⟨46, _⟩ => ⟨S16384x128, .f32⟩
  | .hbm, ⟨47, _⟩ => ⟨S128x1, .bf16⟩
  | .hbm, ⟨48, _⟩ => ⟨S128x1, .bf16⟩
  | .hbm, ⟨49, _⟩ => ⟨S128x1, .bf16⟩
  | .hbm, ⟨50, _⟩ => ⟨S128x1, .bf16⟩
  | .hbm, ⟨51, _⟩ => ⟨S128x128, .f32⟩
  | .hbm, ⟨52, _⟩ => ⟨S128x128, .bf16⟩
  | .hbm, ⟨53, _⟩ => ⟨S256x256, .f32⟩
  | .hbm, ⟨54, _⟩ => ⟨S256x256, .bf16⟩
  | .hbm, ⟨55, _⟩ => ⟨S256x128, .f32⟩
  | .hbm, ⟨56, _⟩ => ⟨S256x128, .bf16⟩
  | .hbm, ⟨57, _⟩ => ⟨S128x1, .f32⟩
  | .hbm, ⟨58, _⟩ => ⟨S128x1, .bf16⟩
  | .hbm, ⟨59, _⟩ => ⟨S16384x1, .f32⟩
  | .hbm, ⟨60, _⟩ => ⟨S16384, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S128x1, .bf16⟩
  | .local _ .vmem, ⟨7, _⟩ => ⟨S128x1, .bf16⟩
  | .local _ .vmem, ⟨8, _⟩ => ⟨S128x1, .bf16⟩
  | .local _ .vmem, ⟨9, _⟩ => ⟨S128x1, .bf16⟩
  | .local _ .vmem, ⟨10, _⟩ => ⟨S1, .f32⟩
  | .local _ .vmem, ⟨11, _⟩ => ⟨S1, .f32⟩
  | .local _ .vmem, ⟨12, _⟩ => ⟨S128x128, .bf16⟩
  | .local _ .vmem, ⟨13, _⟩ => ⟨S128, .f32⟩
  | .local _ .vmem, ⟨14, _⟩ => ⟨S256x256, .bf16⟩
  | .local _ .vmem, ⟨15, _⟩ => ⟨S256, .f32⟩
  | .local _ .vmem, ⟨16, _⟩ => ⟨S256x128, .bf16⟩
  | .local _ .vmem, ⟨17, _⟩ => ⟨S128, .f32⟩
  | .local _ .vmem, ⟨18, _⟩ => ⟨S128x1, .bf16⟩
  | .local _ .vmem, ⟨19, _⟩ => ⟨S1, .f32⟩
  | .local _ .vmem, ⟨20, _⟩ => ⟨S1024x1, .f32⟩
  | .local _ .vmem, ⟨21, _⟩ => ⟨S1024x1, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_v0 : Ref sig .tc := ⟨.hbm, 21, rfl⟩
abbrev main_v1 : Ref sig .tc := ⟨.hbm, 22, rfl⟩
abbrev main_c_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_1 : Ref sig .tc := ⟨.hbm, 29, rfl⟩
abbrev main_v7 : Ref sig .tc := ⟨.hbm, 30, rfl⟩
abbrev main_v8 : Ref sig .tc := ⟨.hbm, 31, rfl⟩
abbrev main_c_2 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_c_3 : Ref sig .tc := ⟨.hbm, 38, rfl⟩
abbrev main_v14 : Ref sig .tc := ⟨.hbm, 39, rfl⟩
abbrev main_v15 : Ref sig .tc := ⟨.hbm, 40, rfl⟩
abbrev main_c_4 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg17_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem17_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x1 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x1 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1024x1 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bitsLt_bf16_f32 : FTy.bits .bf16 < FTy.bits .f32
  transposes_S128x128_S128x128_1_0 : S128x128.Transposes [1, 0] S128x128
  transposes_S256x256_S256x256_1_0 : S256x256.Transposes [1, 0] S256x256
  transposes_S128x256_S256x128_1_0 : S128x256.Transposes [1, 0] S256x128
  transposes_S1x128_S128x1_1_0 : S1x128.Transposes [1, 0] S128x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1_S1_0 : ∀ a, (![0] : Fin 1 → Nat) a + S1.size a ≤ S1.size a
  h_S1 : 0 < S1.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  inb_S256x128_S256x128_0_0 : ∀ a, (![0, 0] : Fin 2 → Nat) a + S256x128.size a ≤ S256x128.size a
  h_S256x128 : 0 < S256x128.numel
  shapeCasts_S256x128_S256x128 : S256x128.ShapeCasts S256x128
  shapeCasts_S128_S1x128 : S128.ShapeCasts S1x128
  broadcasts_S1x128_S1024x128 : S1x128.Broadcasts S1024x128
  broadcasts_S1024x1_S1024x128 : S1024x1.Broadcasts S1024x128
  shapeCasts_S1_S1x1 : S1.ShapeCasts S1x1
  broadcasts_S1x1_S1024x128 : S1x1.Broadcasts S1024x128
  concatenates_S1024x128_S1024x128_S1024x256_d1 : Shape.Concatenates [S1024x128, S1024x128] S1024x256 1
  shapeCasts_S256_S1x256 : S256.ShapeCasts S1x256
  broadcasts_S1x256_S1024x256 : S1x256.Broadcasts S1024x256
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  shapeCasts_S16384x1_S16384 : S16384x1.ShapeCasts S16384
  gather_S100000x128_S16384x1_S16384x128_1_0_n_n_0_1_1128_wf : GatherDims.WF S100000x128 S16384x1 S16384x128 [1] [0] [] [0] [] 1 ![1, 128]
  dot_S1024x128_S128x128_S1024x128_1_0_0_1_n_n_wf : DotDims.WF S1024x128 S128x128 S1024x128 [1] [0] [0] [1] [] []
  dot_S1024x128_S128x1_S1024x1_1_0_0_1_n_n_wf : DotDims.WF S1024x128 S128x1 S1024x1 [1] [0] [0] [1] [] []
  dot_S1024x256_S256x256_S1024x256_1_0_0_1_n_n_wf : DotDims.WF S1024x256 S256x256 S1024x256 [1] [0] [0] [1] [] []
  dot_S1024x256_S256x128_S1024x128_1_0_0_1_n_n_wf : DotDims.WF S1024x256 S256x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S16384x128.size a
  hwx0_0 : ∀ i : grid0.Coords, EltTy.bits .f32 = 32 ∨ (Rect.block (s := S16384x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S16384x128.size a
  hwx0_1 : ∀ i : grid0.Coords, EltTy.bits .f32 = 32 ∨ (Rect.block (s := S16384x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S16384x128.size a
  hwx0_2 : ∀ i : grid0.Coords, EltTy.bits .f32 = 32 ∨ (Rect.block (s := S16384x128) S1024x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S128x1.size a
  hwx0_3 : ∀ i : grid0.Coords, EltTy.bits .bf16 = 32 ∨ (Rect.block (s := S128x1) S128x1.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S128x1.size a
  hwx0_4 : ∀ i : grid0.Coords, EltTy.bits .bf16 = 32 ∨ (Rect.block (s := S128x1) S128x1.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S128x1.size a
  hwx0_5 : ∀ i : grid0.Coords, EltTy.bits .bf16 = 32 ∨ (Rect.block (s := S128x1) S128x1.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x1.size a ≤ S128x1.size a
  hwx0_6 : ∀ i : grid0.Coords, EltTy.bits .bf16 = 32 ∨ (Rect.block (s := S128x1) S128x1.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1.size a ≤ S1.size a
  hwx0_7 : ∀ i : grid0.Coords, EltTy.bits .f32 = 32 ∨ (Rect.block (s := S1) S1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1.size a ≤ S1.size a
  hwx0_8 : ∀ i : grid0.Coords, EltTy.bits .f32 = 32 ∨ (Rect.block (s := S1) S1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .bf16 = 32 ∨ (Rect.block (s := S128x128) S128x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x256.size a ≤ S256x256.size a
  hwx0_11 : ∀ i : grid0.Coords, EltTy.bits .bf16 = 32 ∨ (Rect.block (s := S256x256) S256x256.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256.size a ≤ S256.size a
  hwx0_12 : ∀ i : grid0.Coords, EltTy.bits .f32 = 32 ∨ (Rect.block (s := S256) S256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256x128.size a ≤ S256x128.size a
  hwx0_13 : ∀ i : grid0.Coords, EltTy.bits .bf16 = 32 ∨ (Rect.block (s := S256x128) S256x128.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128.size a ≤ S128.size a
  hwx0_14 : ∀ i : grid0.Coords, EltTy.bits .f32 = 32 ∨ (Rect.block (s := S128) S128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128x1.size a ≤ S128x1.size a
  hwx0_15 : ∀ i : grid0.Coords, EltTy.bits .bf16 = 32 ∨ (Rect.block (s := S128x1) S128x1.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1.size a ≤ S1.size a
  hwx0_16 : ∀ i : grid0.Coords, EltTy.bits .f32 = 32 ∨ (Rect.block (s := S1) S1.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1024x1.size a ≤ S16384x1.size a
  hwx0_17 : ∀ i : grid0.Coords, EltTy.bits .f32 = 32 ∨ (Rect.block (s := S16384x1) S1024x1.size (cc0_transform_17 i) (hinb0_17 i)).WholeWords (EltTy.packing .f32)

variable [Facts₀]

def gather_S100000x128_S16384x1_S16384x128_1_0_n_n_0_1_1128 : GatherDims S100000x128 S16384x1 S16384x128 where
  offsetDims := [1]
  collapsedSliceDims := [0]
  operandBatchingDims := []
  startIndicesBatchingDims := []
  startIndexMap := [0]
  indexVectorDim := 1
  sliceSizes := ![1, 128]
  wf := gather_S100000x128_S16384x1_S16384x128_1_0_n_n_0_1_1128_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x1_S1024x1_1_0_0_1_n_n : DotDims S1024x128 S128x1 S1024x1 where
  lhsContracting := [1]
  rhsContracting := [0]
  lhsNonContracting := [0]
  rhsNonContracting := [1]
  lhsBatch := []
  rhsBatch := []
  wf := dot_S1024x128_S128x1_S1024x1_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf

abbrev win0_0 : Pipeline.Window sig grid0 :=
  Pipeline.Window.ofSpec (Memref.whole main_v6) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S128x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S128x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S128x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg10) S1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg11) S1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v26) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg13) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v28) S256x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg15) S256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v30) S256x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg17) S128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v32) S128x1.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg19) S1.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v33) S1024x1.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S16384 : Shape := ⟨1, ![16384]⟩
abbrev S100000x128 : Shape := ⟨2, ![100000, 128]⟩
abbrev S128x1 : Shape := ⟨2, ![128, 1]⟩
abbrev S1 : Shape := ⟨1, ![1]⟩
abbrev S128x128 : Shape := ⟨2, ![128, 128]⟩
abbrev S128 : Shape := ⟨1, ![128]⟩
abbrev S256x256 : Shape := ⟨2, ![256, 256]⟩
abbrev S256 : Shape := ⟨1, ![256]⟩
abbrev S128x256 : Shape := ⟨2, ![128, 256]⟩
abbrev S1x128 : Shape := ⟨2, ![1, 128]⟩
abbrev S_ : Shape := ⟨0, ![]⟩
abbrev S16384x1 : Shape := ⟨2, ![16384, 1]⟩
abbrev S16384x128 : Shape := ⟨2, ![16384, 128]⟩
abbrev S1x1 : Shape := ⟨2, ![1, 1]⟩
abbrev S16384x256 : Shape := ⟨2, ![16384, 256]⟩
abbrev S1x256 : Shape := ⟨2, ![1, 256]⟩
abbrev S256x128 : Shape := ⟨2, ![256, 128]⟩

abbrev nBuf : Space → Nat
  | .hbm => 149
  | .vmem => 0
  | .smem => 0
  | _ => 0

abbrev hbmTy0_0 (i : Nat) : BufTy := match i % 128 with
  | 0 => ⟨S16384, .i32⟩
  | 1 => ⟨S16384, .i32⟩
  | 2 => ⟨S16384, .f32⟩
  | 3 => ⟨S100000x128, .f32⟩
  | 4 => ⟨S100000x128, .f32⟩
  | 5 => ⟨S100000x128, .f32⟩
  | 6 => ⟨S128x1, .f32⟩
  | 7 => ⟨S128x1, .f32⟩
  | 8 => ⟨S128x1, .f32⟩
  | 9 => ⟨S128x1, .f32⟩
  | 10 => ⟨S1, .f32⟩
  | 11 => ⟨S1, .f32⟩
  | 12 => ⟨S128x128, .f32⟩
  | 13 => ⟨S128, .f32⟩
  | 14 => ⟨S256x256, .f32⟩
  | 15 => ⟨S256, .f32⟩
  | 16 => ⟨S128x256, .f32⟩
  | 17 => ⟨S128, .f32⟩
  | 18 => ⟨S1x128, .f32⟩
  | 19 => ⟨S1, .f32⟩
  | 20 => ⟨S_, .i32⟩
  | 21 => ⟨S16384, .i32⟩
  | 22 => ⟨S16384, .i1⟩
  | 23 => ⟨S_, .i32⟩
  | 24 => ⟨S16384, .i32⟩
  | 25 => ⟨S16384, .i32⟩
  | 26 => ⟨S16384, .i32⟩
  | 27 => ⟨S16384x1, .i32⟩
  | 28 => ⟨S16384x128, .f32⟩
  | 29 => ⟨S_, .i32⟩
  | 30 => ⟨S16384, .i32⟩
  | 31 => ⟨S16384, .i1⟩
  | 32 => ⟨S_, .i32⟩
  | 33 => ⟨S16384, .i32⟩
  | 34 => ⟨S16384, .i32⟩
  | 35 => ⟨S16384, .i32⟩
  | 36 => ⟨S16384x1, .i32⟩
  | 37 => ⟨S16384x128, .f32⟩
  | 38 => ⟨S_, .i32⟩
  | 39 => ⟨S16384, .i32⟩
  | 40 => ⟨S16384, .i1⟩
  | 41 => ⟨S_, .i32⟩
  | 42 => ⟨S16384, .i32⟩
  | 43 => ⟨S16384, .i32⟩
  | 44 => ⟨S16384, .i32⟩
  | 45 => ⟨S16384x1, .i32⟩
  | 46 => ⟨S16384x128, .f32⟩
  | 47 => ⟨S128x128, .f32⟩
  | 48 => ⟨S16384x128, .f32⟩
  | 49 => ⟨S1x128, .f32⟩
  | 50 => ⟨S16384x128, .f32⟩
  | 51 => ⟨S16384x128, .f32⟩
  | 52 => ⟨S_, .f32⟩
  | 53 => ⟨S16384x128, .f32⟩
  | 54 => ⟨S16384x128, .i1⟩
  | 55 => ⟨S_, .f32⟩
  | 56 => ⟨S16384x128, .f32⟩
  | 57 => ⟨S16384x128, .f32⟩
  | 58 => ⟨S16384x128, .f32⟩
  | 59 => ⟨S16384x1, .f32⟩
  | 60 => ⟨S16384x128, .f32⟩
  | 61 => ⟨S16384x128, .f32⟩
  | 62 => ⟨S16384x1, .f32⟩
  | 63 => ⟨S16384x128, .f32⟩
  | 64 => ⟨S16384x128, .f32⟩
  | 65 => ⟨S16384x128, .f32⟩
  | 66 => ⟨S1x1, .f32⟩
  | 67 => ⟨S16384x128, .f32⟩
  | 68 => ⟨S16384x128, .f32⟩
  | 69 => ⟨S16384x1, .f32⟩
  | 70 => ⟨S16384x128, .f32⟩
  | 71 => ⟨S16384x128, .f32⟩
  | 72 => ⟨S16384x1, .f32⟩
  | 73 => ⟨S16384x128, .f32⟩
  | 74 => ⟨S16384x128, .f32⟩
  | 75 => ⟨S16384x128, .f32⟩
  | 76 => ⟨S1x1, .f32⟩
  | 77 => ⟨S16384x128, .f32⟩
  | 78 => ⟨S16384x128, .f32⟩
  | 79 => ⟨S128x128, .f32⟩
  | 80 => ⟨S16384x128, .f32⟩
  | 81 => ⟨S1x128, .f32⟩
  | 82 => ⟨S16384x128, .f32⟩
  | 83 => ⟨S16384x128, .f32⟩
  | 84 => ⟨S_, .f32⟩
  | 85 => ⟨S16384x128, .f32⟩
  | 86 => ⟨S16384x128, .i1⟩
  | 87 => ⟨S_, .f32⟩
  | 88 => ⟨S16384x128, .f32⟩
  | 89 => ⟨S16384x128, .f32⟩
  | 90 => ⟨S16384x128, .f32⟩
  | 91 => ⟨S16384x1, .f32⟩
  | 92 => ⟨S16384x128, .f32⟩
  | 93 => ⟨S16384x128, .f32⟩
  | 94 => ⟨S16384x1, .f32⟩
  | 95 => ⟨S16384x128, .f32⟩
  | 96 => ⟨S16384x128, .f32⟩
  | 97 => ⟨S16384x128, .f32⟩
  | 98 => ⟨S1x1, .f32⟩
  | 99 => ⟨S16384x128, .f32⟩
  | 100 => ⟨S16384x128, .f32⟩
  | 101 => ⟨S16384x1, .f32⟩
  | 102 => ⟨S16384x128, .f32⟩
  | 103 => ⟨S16384x128, .f32⟩
  | 104 => ⟨S16384x1, .f32⟩
  | 105 => ⟨S16384x128, .f32⟩
  | 106 => ⟨S16384x128, .f32⟩
  | 107 => ⟨S16384x128, .f32⟩
  | 108 => ⟨S1x1, .f32⟩
  | 109 => ⟨S16384x128, .f32⟩
  | 110 => ⟨S16384x128, .f32⟩
  | 111 => ⟨S16384x256, .f32⟩
  | 112 => ⟨S256x256, .f32⟩
  | 113 => ⟨S16384x256, .f32⟩
  | 114 => ⟨S1x256, .f32⟩
  | 115 => ⟨S16384x256, .f32⟩
  | 116 => ⟨S16384x256, .f32⟩
  | 117 => ⟨S_, .f32⟩
  | 118 => ⟨S16384x256, .f32⟩
  | 119 => ⟨S16384x256, .i1⟩
  | 120 => ⟨S_, .f32⟩
  | 121 => ⟨S16384x256, .f32⟩
  | 122 => ⟨S16384x256, .f32⟩
  | 123 => ⟨S16384x256, .f32⟩
  | 124 => ⟨S256x128, .f32⟩
  | 125 => ⟨S16384x128, .f32⟩
  | 126 => ⟨S1x128, .f32⟩
  | 127 => ⟨S16384x128, .f32⟩
  | _ => ⟨S16384, .i32⟩

abbrev hbmTy0_1 (i : Nat) : BufTy := match i % 128 with
  | 0 => ⟨S16384x128, .f32⟩
  | 1 => ⟨S_, .f32⟩
  | 2 => ⟨S16384x128, .f32⟩
  | 3 => ⟨S16384x128, .i1⟩
  | 4 => ⟨S_, .f32⟩
  | 5 => ⟨S16384x128, .f32⟩
  | 6 => ⟨S16384x128, .f32⟩
  | 7 => ⟨S16384x128, .f32⟩
  | 8 => ⟨S128x1, .f32⟩
  | 9 => ⟨S16384x1, .f32⟩
  | 10 => ⟨S1x1, .f32⟩
  | 11 => ⟨S16384x1, .f32⟩
  | 12 => ⟨S16384x1, .f32⟩
  | 13 => ⟨S_, .f32⟩
  | 14 => ⟨S16384x1, .f32⟩
  | 15 => ⟨S16384x1, .i1⟩
  | 16 => ⟨S_, .f32⟩
  | 17 => ⟨S16384x1, .f32⟩
  | 18 => ⟨S16384x1, .f32⟩
  | 19 => ⟨S16384x1, .f32⟩
  | 20 => ⟨S16384, .f32⟩
  | _ => ⟨S16384, .i32⟩

abbrev hbmTy (i : Nat) : BufTy := match i / 128 with
  | 0 => hbmTy0_0 i
  | 1 => hbmTy0_1 i
  | _ => ⟨S16384, .i32⟩

abbrev bufTy : (tb : Table) → Fin (tcTables nBuf tb) → BufTy
  | .hbm, ⟨i, _⟩ => hbmTy i
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_v0 : Ref sig .tc := ⟨.hbm, 21, rfl⟩
abbrev main_v1 : Ref sig .tc := ⟨.hbm, 22, rfl⟩
abbrev main_c_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_1 : Ref sig .tc := ⟨.hbm, 29, rfl⟩
abbrev main_v7 : Ref sig .tc := ⟨.hbm, 30, rfl⟩
abbrev main_v8 : Ref sig .tc := ⟨.hbm, 31, rfl⟩
abbrev main_c_2 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_c_3 : Ref sig .tc := ⟨.hbm, 38, rfl⟩
abbrev main_v14 : Ref sig .tc := ⟨.hbm, 39, rfl⟩
abbrev main_v15 : Ref sig .tc := ⟨.hbm, 40, rfl⟩
abbrev main_c_4 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_call0_cst : Ref sig .tc := ⟨.hbm, 52, rfl⟩
abbrev main_call0_v0 : Ref sig .tc := ⟨.hbm, 53, rfl⟩
abbrev main_call0_v1 : Ref sig .tc := ⟨.hbm, 54, rfl⟩
abbrev main_call0_cst_0 : Ref sig .tc := ⟨.hbm, 55, rfl⟩
abbrev main_call0_v2 : Ref sig .tc := ⟨.hbm, 56, rfl⟩
abbrev main_call0_v3 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_call1_cst : Ref sig .tc := ⟨.hbm, 84, rfl⟩
abbrev main_call1_v0 : Ref sig .tc := ⟨.hbm, 85, rfl⟩
abbrev main_call1_v1 : Ref sig .tc := ⟨.hbm, 86, rfl⟩
abbrev main_call1_cst_0 : Ref sig .tc := ⟨.hbm, 87, rfl⟩
abbrev main_call1_v2 : Ref sig .tc := ⟨.hbm, 88, rfl⟩
abbrev main_call1_v3 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_call2_cst : Ref sig .tc := ⟨.hbm, 117, rfl⟩
abbrev main_call2_v0 : Ref sig .tc := ⟨.hbm, 118, rfl⟩
abbrev main_call2_v1 : Ref sig .tc := ⟨.hbm, 119, rfl⟩
abbrev main_call2_cst_0 : Ref sig .tc := ⟨.hbm, 120, rfl⟩
abbrev main_call2_v2 : Ref sig .tc := ⟨.hbm, 121, rfl⟩
abbrev main_call2_v3 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_call3_cst : Ref sig .tc := ⟨.hbm, 129, rfl⟩
abbrev main_call3_v0 : Ref sig .tc := ⟨.hbm, 130, rfl⟩
abbrev main_call3_v1 : Ref sig .tc := ⟨.hbm, 131, rfl⟩
abbrev main_call3_cst_0 : Ref sig .tc := ⟨.hbm, 132, rfl⟩
abbrev main_call3_v2 : Ref sig .tc := ⟨.hbm, 133, rfl⟩
abbrev main_call3_v3 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_call4_cst : Ref sig .tc := ⟨.hbm, 141, rfl⟩
abbrev main_call4_v0 : Ref sig .tc := ⟨.hbm, 142, rfl⟩
abbrev main_call4_v1 : Ref sig .tc := ⟨.hbm, 143, rfl⟩
abbrev main_call4_cst_0 : Ref sig .tc := ⟨.hbm, 144, rfl⟩
abbrev main_call4_v2 : Ref sig .tc := ⟨.hbm, 145, rfl⟩
abbrev main_call4_v3 : Ref sig .tc := ⟨.hbm, 146, rfl⟩
abbrev main_v91 : Ref sig .tc := ⟨.hbm, 147, rfl⟩
abbrev main_v92 : Ref sig .tc := ⟨.hbm, 148, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  transposes_S128x128_S128x128_1_0 : S128x128.Transposes [1, 0] S128x128
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  bcast_S16384x1_S16384x128_0_1 : S16384x1.BroadcastsInDim S16384x128 (![0, 1] : Fin 2 → Fin S16384x128.rank)
  bcast_S1_S1x1_1 : S1.BroadcastsInDim S1x1 (![1] : Fin 1 → Fin S1x1.rank)
  bcast_S1x1_S16384x128_0_1 : S1x1.BroadcastsInDim S16384x128 (![0, 1] : Fin 2 → Fin S16384x128.rank)
  concatenates_S16384x128_S16384x128_S16384x256_d1 : Shape.Concatenates [S16384x128, S16384x128] S16384x256 1
  transposes_S256x256_S256x256_1_0 : S256x256.Transposes [1, 0] S256x256
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  transposes_S128x256_S256x128_1_0 : S128x256.Transposes [1, 0] S256x128
  transposes_S1x128_S128x1_1_0 : S1x128.Transposes [1, 0] S128x1
  bcast_S1x1_S16384x1_0_1 : S1x1.BroadcastsInDim S16384x1 (![0, 1] : Fin 2 → Fin S16384x1.rank)
  bcast_S_S16384x1 : S_.BroadcastsInDim S16384x1 (![] : Fin 0 → Fin S16384x1.rank)
  shapeCasts_S16384x1_S16384 : S16384x1.ShapeCasts S16384
  gather_S100000x128_S16384x1_S16384x128_1_0_n_n_0_1_1128_wf : GatherDims.WF S100000x128 S16384x1 S16384x128 [1] [0] [] [0] [] 1 ![1, 128]
  dot_S16384x128_S128x128_S16384x128_1_0_0_1_n_n_wf : DotDims.WF S16384x128 S128x128 S16384x128 [1] [0] [0] [1] [] []
  dot_S16384x128_S128x1_S16384x1_1_0_0_1_n_n_wf : DotDims.WF S16384x128 S128x1 S16384x1 [1] [0] [0] [1] [] []
  dot_S16384x256_S256x256_S16384x256_1_0_0_1_n_n_wf : DotDims.WF S16384x256 S256x256 S16384x256 [1] [0] [0] [1] [] []
  dot_S16384x256_S256x128_S16384x128_1_0_0_1_n_n_wf : DotDims.WF S16384x256 S256x128 S16384x128 [1] [0] [0] [1] [] []

variable [Facts₀]

def gather_S100000x128_S16384x1_S16384x128_1_0_n_n_0_1_1128 : GatherDims S100000x128 S16384x1 S16384x128 where
  offsetDims := [1]
  collapsedSliceDims := [0]
  operandBatchingDims := []
  startIndicesBatchingDims := []
  startIndexMap := [0]
  indexVectorDim := 1
  sliceSizes := ![1, 128]
  wf := gather_S100000x128_S16384x1_S16384x128_1_0_n_n_0_1_1128_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S16384x128_S128x1_S16384x1_1_0_0_1_n_n : DotDims S16384x128 S128x1 S16384x1 where
  lhsContracting := [1]
  rhsContracting := [0]
  lhsNonContracting := [0]
  rhsNonContracting := [1]
  lhsBatch := []
  rhsBatch := []
  wf := dot_S16384x128_S128x1_S16384x1_1_0_0_1_n_n_wf
def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf

class Facts : Prop extends Facts₀ where

variable [Facts]
-- ==== Proof.LibRowOps.lean ====
/-
  Rows of matrices at the ideal values: the operations a row-wise network is made of, each read at an
  entry (i, j) in terms of row i of its operand, for any sizes.

  A plain matrix product (one contracted axis: the left operand's columns against the right operand's rows), on the
  host and in a kernel (there accumulated into a zero splat), is the sum over the contraction coordinate q of
  L (i, q) * R (q, j). A vector laid along every row, a one-entry vector laid everywhere, and a one-column matrix laid
  along every column are read at (i, j) as the vector's entry j, the one entry, and the column's entry i. Two matrices
  set side by side are read at (i, q) from the left one while q is among its columns and from the right one after.
  A one-column matrix reshaped to a vector keeps entry i.
-/
import Idealize.ShloMosaic.Lib.KernelVsHost
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.RowOps

open Idealize.ShloMosaic Idealize.ShloMosaic.ValueIdx

/-- Two rows set side by side: entry k of the joined row is entry k of the left row while k is below its length,
    and entry k - a of the right row after (0 past both, which no index of the joined length reaches). -/
def cat {α : Type} [Zero α] {a b c : Nat} (x : Fin a → α) (y : Fin b → α) (k : Fin c) : α :=
  if h : k.val < a then x ⟨k.val, h⟩ else if h2 : k.val - a < b then y ⟨k.val - a, h2⟩ else 0

section Products
variable {n k m : Nat} {φ₁ φ₂ : FTy}

/-- With no batch axis and one non-contracted left axis, that axis of the left operand's index reads the output
    index's first coordinate. -/
private theorem lhsIdx_row {sl sr : Shape} (d : DotDims sl sr ⟨2, ![n, m]⟩) {a : Fin sl.rank}
    (hb : d.lhsBatch = []) (hn : d.lhsNonContracting = [a]) (j : (⟨2, ![n, m]⟩ : Shape).Idx) (q : d.contr.Idx) :
    (d.lhsIdx j q a).val = (j 0).val := by
  have hnb : a ∉ d.lhsBatch := by rw [hb]; exact List.not_mem_nil
  have hmem : a ∈ d.lhsNonContracting := by rw [hn]; exact List.mem_singleton.mpr rfl
  unfold DotDims.lhsIdx
  rw [dif_neg hnb, dif_pos hmem]
  simp only [Fin.val_cast]
  have key : ∀ (p r : Nat) (hp : p < 2) (hr : r < 2), p = r → (j ⟨p, hp⟩).val = (j ⟨r, hr⟩).val :=
    fun p r hp hr h => by subst h; rfl
  exact key _ _ _ _ (by simp [hb, hn])

/-- With no batch axis and one non-contracted axis on each side, the right operand's non-contracted axis reads the
    output index's second coordinate (its position comes after the left operand's one). -/
private theorem rhsIdx_col {sl sr : Shape} (d : DotDims sl sr ⟨2, ![n, m]⟩) {a : Fin sr.rank} {b : Fin sl.rank}
    (hlb : d.lhsBatch = []) (hb : d.rhsBatch = []) (hln : d.lhsNonContracting = [b]) (hn : d.rhsNonContracting = [a])
    (j : (⟨2, ![n, m]⟩ : Shape).Idx) (q : d.contr.Idx) :
    (d.rhsIdx j q a).val = (j 1).val := by
  have hnb : a ∉ d.rhsBatch := by rw [hb]; exact List.not_mem_nil
  have hmem : a ∈ d.rhsNonContracting := by rw [hn]; exact List.mem_singleton.mpr rfl
  unfold DotDims.rhsIdx
  rw [dif_neg hnb, dif_pos hmem]
  simp only [Fin.val_cast]
  have key : ∀ (p r : Nat) (hp : p < 2) (hr : r < 2), p = r → (j ⟨p, hp⟩).val = (j ⟨r, hr⟩).val :=
    fun p r hp hr h => by subst h; rfl
  exact key _ _ _ _ (by simp [hlb, hln, hn])

/-- The host's plain matrix product at (i, j): the sum over q of L (i, q) * R (q, j). -/
theorem dotGeneral_rows_apply (d : DotDims ⟨2, ![n, k]⟩ ⟨2, ![k, m]⟩ ⟨2, ![n, m]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (L : FVec Ideal ⟨2, ![n, k]⟩ φ₁) (R : FVec Ideal ⟨2, ![k, m]⟩ φ₂)
    (i : Fin n) (j : Fin m) :
    Host.dotGeneral d prec L R (ix2 i j) = ∑ q : Fin k, L (ix2 i q) * R (ix2 q j) := by
  show FloatOps.dotGeneral d prec .single L R (ix2 i j) = _
  rw [Ideal.dotGeneral_apply]
  -- the contraction shape has one axis, of extent k
  have hr : d.contr.rank = 1 := by rw [d.rank_contr, hlc]; rfl
  have hs : d.contr.size ⟨0, by omega⟩ = k := by
    have h0 : (0:ℕ) < d.lhsContracting.length := by rw [hlc]; exact Nat.one_pos
    rw [d.size_contr 0 h0]
    have : d.lhsContracting[0] = (1 : Fin 2) := by simp [hlc]
    rw [this]; rfl
  -- re-index the sum by the contraction index's one coordinate
  rw [← Equiv.sum_comp (contrEquiv1 d k hr hs).symm]
  refine Finset.sum_congr rfl fun q _ => ?_
  -- at coordinate q the operands are read at (i, q) and (q, j)
  have eL : d.lhsIdx (ix2 i j) ((contrEquiv1 d k hr hs).symm q) = ix2 i q := by
    funext a
    refine Fin.ext ?_
    match a with
    | ⟨0, _⟩ => exact lhsIdx_row d hlb hln (ix2 i j) _
    | ⟨1, _⟩ =>
      rw [show (⟨1, by omega⟩ : Fin 2) = (1 : Fin 2) from rfl]
      rw [d.lhsIdx_val_of_single hlc, contrEquiv1_symm_val]
  have eR : d.rhsIdx (ix2 i j) ((contrEquiv1 d k hr hs).symm q) = ix2 q j := by
    funext a
    refine Fin.ext ?_
    match a with
    | ⟨0, _⟩ =>
      rw [show (⟨0, by omega⟩ : Fin 2) = (0 : Fin 2) from rfl]
      rw [d.rhsIdx_val_of_single hrc, contrEquiv1_symm_val]
    | ⟨1, _⟩ => exact rhsIdx_col d hlb hrb hln hrn (ix2 i j) _
  rw [eL, eR]

/-- A kernel's plain matrix product into a zero accumulator at (i, j): the same sum. -/
theorem matmul_zero_rows_apply (d : DotDims ⟨2, ![n, k]⟩ ⟨2, ![k, m]⟩ ⟨2, ![n, m]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (L : FVec Ideal ⟨2, ![n, k]⟩ φ₁) (R : FVec Ideal ⟨2, ![k, m]⟩ φ₂)
    (i : Fin n) (j : Fin m) :
    matmul d prec L R (constant ⟨2, ![n, m]⟩ .f32 0x00000000#32) (ix2 i j) = ∑ q : Fin k, L (ix2 i q) * R (ix2 q j) := by
  rw [matmul_zero_eq_dotGeneral]
  exact dotGeneral_rows_apply d hlc hrc hln hrn hlb hrb prec L R i j

end Products

section Layout
variable {α : Type} {n m : Nat}

/-- Host: a vector of m entries laid along each of n rows (through its one-row form), at (i, j), is entry j. -/
theorem bcastRow_host_apply (h1 : (⟨1, ![m]⟩ : Shape).BroadcastsInDim ⟨2, ![1, m]⟩ ![1])
    (h2 : (⟨2, ![1, m]⟩ : Shape).BroadcastsInDim ⟨2, ![n, m]⟩ ![0, 1]) (b : (⟨1, ![m]⟩ : Shape).Idx → α)
    (i : Fin n) (j : Fin m) :
    broadcastInDim ⟨2, ![n, m]⟩ ![0, 1] h2 (broadcastInDim ⟨2, ![1, m]⟩ ![1] h1 b) (ix2 i j) = b (ix1 j) := by
  rw [broadcastInDim_oneRow_apply]
  refine broadcastInDim_apply ![1] h1 b (ix2 (0 : Fin 1) j) (ix1 j) fun a => ?_
  match a with
  | ⟨0, _⟩ =>
    show j.val = if m = 1 then 0 else j.val
    split
    · have := j.isLt; omega
    · rfl

/-- Host: a one-entry vector laid over an n × m matrix (through its 1 × 1 form), at (i, j), is the entry. -/
theorem bcastScalar_host_apply (h1 : (⟨1, ![1]⟩ : Shape).BroadcastsInDim ⟨2, ![1, 1]⟩ ![1])
    (h2 : (⟨2, ![1, 1]⟩ : Shape).BroadcastsInDim ⟨2, ![n, m]⟩ ![0, 1]) (b : (⟨1, ![1]⟩ : Shape).Idx → α)
    (i : Fin n) (j : Fin m) :
    broadcastInDim ⟨2, ![n, m]⟩ ![0, 1] h2 (broadcastInDim ⟨2, ![1, 1]⟩ ![1] h1 b) (ix2 i j) = b (ix1 (0 : Fin 1)) := by
  refine (broadcastInDim_apply ![0, 1] h2 _ (ix2 i j) (ix2 (0 : Fin 1) (0 : Fin 1)) fun a => ?_).trans ?_
  · match a with
    | ⟨0, _⟩ => rfl
    | ⟨1, _⟩ => rfl
  · refine broadcastInDim_apply ![1] h1 b (ix2 (0 : Fin 1) (0 : Fin 1)) (ix1 (0 : Fin 1)) fun a => ?_
    match a with
    | ⟨0, _⟩ => rfl

/-- Host: a one-column matrix laid along every column, at (i, j), is the column's entry i. -/
theorem bcastCol_host_apply (h : (⟨2, ![n, 1]⟩ : Shape).BroadcastsInDim ⟨2, ![n, m]⟩ ![0, 1])
    (y : (⟨2, ![n, 1]⟩ : Shape).Idx → α) (i : Fin n) (j : Fin m) :
    broadcastInDim ⟨2, ![n, m]⟩ ![0, 1] h y (ix2 i j) = y (ix2 i (0 : Fin 1)) := by
  refine broadcastInDim_apply ![0, 1] h y (ix2 i j) (ix2 i (0 : Fin 1)) fun a => ?_
  match a with
  | ⟨0, _⟩ =>
    show i.val = if n = 1 then 0 else i.val
    split
    · have := i.isLt; omega
    · rfl
  | ⟨1, _⟩ => rfl

/-- Kernel: a vector of m entries cast to one row and laid along each of n rows, at (i, j), is entry j. -/
theorem bcastRow_kernel_apply (h1 : (⟨1, ![m]⟩ : Shape).ShapeCasts ⟨2, ![1, m]⟩)
    (h2 : (⟨2, ![1, m]⟩ : Shape).Broadcasts ⟨2, ![n, m]⟩) (b : (⟨1, ![m]⟩ : Shape).Idx → α)
    (i : Fin n) (j : Fin m) :
    broadcastTo ⟨2, ![n, m]⟩ (shapeCast ⟨2, ![1, m]⟩ b h1) h2 (ix2 i j) = b (ix1 j) := by
  rw [broadcastTo_1b_ab_apply, shapeCast_a_1a_apply]

/-- Kernel: a one-entry vector cast to 1 × 1 and laid over an n × m matrix, at (i, j), is the entry. -/
theorem bcastScalar_kernel_apply (h1 : (⟨1, ![1]⟩ : Shape).ShapeCasts ⟨2, ![1, 1]⟩)
    (h2 : (⟨2, ![1, 1]⟩ : Shape).Broadcasts ⟨2, ![n, m]⟩) (b : (⟨1, ![1]⟩ : Shape).Idx → α)
    (i : Fin n) (j : Fin m) :
    broadcastTo ⟨2, ![n, m]⟩ (shapeCast ⟨2, ![1, 1]⟩ b h1) h2 (ix2 i j) = b (ix1 (0 : Fin 1)) := by
  refine (broadcastTo_apply _ h2 (ix2 i j) (ix2 (0 : Fin 1) (0 : Fin 1)) fun a => ?_).trans ?_
  · match a with
    | ⟨0, _⟩ => rfl
    | ⟨1, _⟩ => rfl
  · exact shapeCast_a_1a_apply b h1 0 0

/-- Kernel: a one-column matrix laid along every column, at (i, j), is the column's entry i. -/
theorem bcastCol_kernel_apply (h : (⟨2, ![n, 1]⟩ : Shape).Broadcasts ⟨2, ![n, m]⟩)
    (y : (⟨2, ![n, 1]⟩ : Shape).Idx → α) (i : Fin n) (j : Fin m) :
    broadcastTo ⟨2, ![n, m]⟩ y h (ix2 i j) = y (ix2 i (0 : Fin 1)) := by
  refine broadcastTo_apply y h (ix2 i j) (ix2 i (0 : Fin 1)) fun a => ?_
  match a with
  | ⟨0, _⟩ =>
    show i.val = if n = 1 then 0 else i.val
    split
    · have := i.isLt; omega
    · rfl
  | ⟨1, _⟩ => rfl

/-- Two matrices of n rows set side by side, at (i, q): row i of the left one joined with row i of the right one. -/
theorem concat_cols_apply [Zero α] {a b c : Nat}
    (h : Shape.Concatenates [(⟨2, ![n, a]⟩ : Shape), ⟨2, ![n, b]⟩] ⟨2, ![n, c]⟩ 1)
    (x : (⟨2, ![n, a]⟩ : Shape).Idx → α) (y : (⟨2, ![n, b]⟩ : Shape).Idx → α) (i : Fin n) (q : Fin c) :
    concatenate ⟨2, ![n, c]⟩ 1 [⟨⟨2, ![n, a]⟩, x⟩, ⟨⟨2, ![n, b]⟩, y⟩] h (ix2 i q)
      = cat (fun k => x (ix2 i k)) (fun k => y (ix2 i k)) q := by
  -- the joined width is the two widths' sum
  have hab : a + (b + 0) = c := h.2.2
  unfold cat
  by_cases hq : q.val < a
  · rw [dif_pos hq]
    refine concatenate_pair_apply_left 1 x y h (ix2 i q) rfl (ix2 i ⟨q.val, hq⟩) fun d => ?_
    match d with
    | ⟨0, _⟩ => rfl
    | ⟨1, _⟩ => rfl
  · have h2 : q.val - a < b := by have := q.isLt; omega
    rw [dif_neg hq, dif_pos h2]
    refine concatenate_pair_apply_right 1 x y h (ix2 i q) rfl rfl (ix2 i ⟨q.val - a, h2⟩) (fun d hd => ?_) ?_
    · match d with
      | ⟨0, _⟩ => rfl
      | ⟨1, _⟩ => exact absurd rfl hd
    · show (q.val - a) + a = q.val
      omega

/-- A one-column matrix reshaped to a vector keeps entry i. -/
theorem reshape_col_apply (h : (⟨2, ![n, 1]⟩ : Shape).ShapeCasts ⟨1, ![n]⟩)
    (x : (⟨2, ![n, 1]⟩ : Shape).Idx → α) (i : Fin n) :
    shapeCast ⟨1, ![n]⟩ x h (ix1 i) = x (ix2 i (0 : Fin 1)) := by
  refine shapeCast_apply x h (ix1 i) (ix2 i (0 : Fin 1)) ?_
  rw [Shape.rowMajor_val_two, Shape.rowMajor_val_one]
  show i.val * 1 + 0 = i.val
  omega

end Layout

end Idealize.ShloMosaic.RowOps

end
-- ==== Proof.CrossMlp.lean ====
/-
  The network one row at a time, on the extended reals.

  A sample is three rows of 128 numbers: u (the user's), it (the item's), hd (the head entity's).
  A dense layer with weights W (contraction coordinate first), bias b and the leaky rectifier sends a row x to
  j ↦ lrelu (∑ k, x k * W k j + b j). A cross-compress step sends the pair (it, hd) to
  j ↦ it j * (hd · wa) + hd j * (it · wb) + bias. The result for the sample is three dense layers over the user's row
  after two dense layers joined with the item's row after two cross-compress steps.

  The rectifier is x where 0 ≤ x and slope * x elsewhere; tested with 0 < x instead it is the same function, because
  slope * 0 = 0.
-/
import proofs.«111562_j21268678050244_1_alg».proof.Proof.LibRowOps

noncomputable section

namespace Cert.CrossMlp

open Idealize.ShloMosaic Idealize.ShloMosaic.RowOps

/-- The rectifier's slope below zero: the one binary word both programs carry for 0.01. -/
def slope : EReal := Ideal.ofBits .f32 0x3C23D70A#32

/-- The leaky rectifier as the reference tests it: x where 0 ≤ x, slope * x elsewhere. -/
def lrelu (x : EReal) : EReal :=
  Scalar.select (Ideal.cmp .oge x (Ideal.ofBits .f32 0x00000000#32)) x (slope * x)

/-- The leaky rectifier as the kernel tests it: x where 0 < x, slope * x elsewhere. -/
def lreluGt (x : EReal) : EReal :=
  Scalar.select (Ideal.cmp .ogt x (Ideal.ofBits .f32 0x00000000#32)) x (slope * x)

/-- The two tests differ only at 0, where slope * 0 = 0 is x itself. -/
theorem lreluGt_eq (x : EReal) : lreluGt x = lrelu x := by
  unfold lreluGt lrelu
  rw [Ideal.ofBits_zero_f32]
  show Scalar.select (BitVec.ofBool (decide (0 < x))) x (slope * x)
    = Scalar.select (BitVec.ofBool (decide (0 ≤ x))) x (slope * x)
  by_cases hgt : 0 < x
  · -- above zero both tests hold
    rw [decide_eq_true hgt, decide_eq_true hgt.le]
  · by_cases hge : 0 ≤ x
    · -- at zero the first test fails and the second holds; slope * 0 = 0 is x
      obtain rfl : x = 0 := le_antisymm (not_lt.mp hgt) hge
      rw [decide_eq_false hgt, decide_eq_true hge]
      show Scalar.select 0#1 (0 : EReal) (slope * 0) = Scalar.select 1#1 (0 : EReal) (slope * 0)
      rw [ValueIdx.select_zero, ValueIdx.select_one, mul_zero]
    · -- below zero both tests fail
      rw [decide_eq_false hgt, decide_eq_false hge]

/-- A dense layer with the rectifier: j ↦ lrelu (∑ k, x k * W k j + b j). -/
def dense {n m : Nat} (W : Fin n → Fin m → EReal) (b : Fin m → EReal) (x : Fin n → EReal) (j : Fin m) : EReal :=
  lrelu (∑ k, x k * W k j + b j)

/-- A cross-compress step: j ↦ it j * (hd · wa) + hd j * (it · wb) + bias. -/
def cross {n : Nat} (wa wb : Fin n → EReal) (bias : EReal) (it hd : Fin n → EReal) (j : Fin n) : EReal :=
  it j * (∑ k, hd k * wa k) + hd j * (∑ k, it k * wb k) + bias

/-- One sample's result from its three rows. -/
def final (Wu : Fin 128 → Fin 128 → EReal) (bu : Fin 128 → EReal)
    (wvv wev wve wee : Fin 128 → EReal) (bv be : EReal)
    (W0 : Fin 256 → Fin 256 → EReal) (b0 : Fin 256 → EReal)
    (W1 : Fin 256 → Fin 128 → EReal) (b1 : Fin 128 → EReal)
    (W2 : Fin 128 → Fin 1 → EReal) (b2 : Fin 1 → EReal)
    (u it hd : Fin 128 → EReal) : EReal :=
  dense W2 b2 (dense W1 b1 (dense W0 b0
    (cat (dense Wu bu (dense Wu bu u))
         (cross wvv wev bv (cross wvv wev bv it hd) (cross wve wee be it hd))))) 0

end Cert.CrossMlp

end
-- ==== Proof.KernelRows.lean ====
/-
  The kernel's body read at one sample: entry (p, 0) of the block the body stores is the row-wise network at row p of
  the three input blocks, the weight blocks read by their coordinates.
-/
import proofs.«111562_j21268678050244_1_alg».proof.Proof.Gen.KernelIdeal.Skeleton
import proofs.«111562_j21268678050244_1_alg».proof.Proof.CrossMlp

noncomputable section

namespace Cert.KernelIdeal.Rows

open Cert.KernelIdeal Cert.KernelIdeal.Gen Idealize.ShloMosaic Idealize.ShloMosaic.ValueIdx Idealize.ShloMosaic.RowOps

/-! ## The pieces of a row-wise layer at an entry -/

section Pieces

/-- The kernel's rectifier at an entry: the element where it is above zero, the slope times it elsewhere; that is the
    model's rectifier, the two tests differing only at zero. -/
private theorem rect_apply {s : Shape} (z : FVec Ideal s .f32) (i : s.Idx) :
    select (cmpf .ogt z (broadcast s (Scalar.ofBits .f32 0x00000000#32 : Ideal .f32))) z
        (mulf (broadcast s (Scalar.ofBits .f32 0x3C23D70A#32 : Ideal .f32)) z) i
      = CrossMlp.lrelu (z i) :=
  CrossMlp.lreluGt_eq (z i)

variable {n k m : Nat}

/-- A product into the zero accumulator plus a bias laid along the rows, at (i, j): the row's product with column j
    plus the bias's entry j. -/
private theorem preact_apply (d : DotDims ⟨2, ![n, k]⟩ ⟨2, ![k, m]⟩ ⟨2, ![n, m]⟩)
    (hlc : d.lhsContracting = [1]) (hrc : d.rhsContracting = [0])
    (hln : d.lhsNonContracting = [0]) (hrn : d.rhsNonContracting = [1])
    (hlb : d.lhsBatch = []) (hrb : d.rhsBatch = [])
    (hlt : FTy.bits .bf16 < FTy.bits .f32)
    (h1 : (⟨1, ![m]⟩ : Shape).ShapeCasts ⟨2, ![1, m]⟩) (h2 : (⟨2, ![1, m]⟩ : Shape).Broadcasts ⟨2, ![n, m]⟩)
    (X : FVec Ideal ⟨2, ![n, k]⟩ .f32) (W : FVec Ideal ⟨2, ![k, m]⟩ .bf16) (b : FVec Ideal ⟨1, ![m]⟩ .f32)
    (i : Fin n) (j : Fin m) :
    addf (matmul d none (truncf .bf16 X hlt) W (constant ⟨2, ![n, m]⟩ .f32 0x00000000#32))
        (broadcastTo ⟨2, ![n, m]⟩ (shapeCast ⟨2, ![1, m]⟩ b h1) h2) (ix2 i j)
      = ∑ a : Fin k, X (ix2 i a) * W (ix2 a j) + b (ix1 j) :=
  (addf_apply _ _ _).trans (congrArg₂ (· + ·)
    (matmul_zero_rows_apply d hlc hrc hln hrn hlb hrb none _ W i j)
    (bcastRow_kernel_apply h1 h2 b i j))

/-- A whole layer of the kernel at (i, j): the model's dense layer on row i. -/
private theorem denseK_apply (d : DotDims ⟨2, ![n, k]⟩ ⟨2, ![k, m]⟩ ⟨2, ![n, m]⟩)
    (hlc : d.lhsContracting = [1]) (hrc : d.rhsContracting = [0])
    (hln : d.lhsNonContracting = [0]) (hrn : d.rhsNonContracting = [1])
    (hlb : d.lhsBatch = []) (hrb : d.rhsBatch = [])
    (hlt : FTy.bits .bf16 < FTy.bits .f32)
    (h1 : (⟨1, ![m]⟩ : Shape).ShapeCasts ⟨2, ![1, m]⟩) (h2 : (⟨2, ![1, m]⟩ : Shape).Broadcasts ⟨2, ![n, m]⟩)
    (X : FVec Ideal ⟨2, ![n, k]⟩ .f32) (W : FVec Ideal ⟨2, ![k, m]⟩ .bf16) (b : FVec Ideal ⟨1, ![m]⟩ .f32)
    (i : Fin n) (j : Fin m) :
    select
        (cmpf .ogt
          (addf (matmul d none (truncf .bf16 X hlt) W (constant ⟨2, ![n, m]⟩ .f32 0x00000000#32))
            (broadcastTo ⟨2, ![n, m]⟩ (shapeCast ⟨2, ![1, m]⟩ b h1) h2))
          (broadcast ⟨2, ![n, m]⟩ (Scalar.ofBits .f32 0x00000000#32 : Ideal .f32)))
        (addf (matmul d none (truncf .bf16 X hlt) W (constant ⟨2, ![n, m]⟩ .f32 0x00000000#32))
          (broadcastTo ⟨2, ![n, m]⟩ (shapeCast ⟨2, ![1, m]⟩ b h1) h2))
        (mulf (broadcast ⟨2, ![n, m]⟩ (Scalar.ofBits .f32 0x3C23D70A#32 : Ideal .f32))
          (addf (matmul d none (truncf .bf16 X hlt) W (constant ⟨2, ![n, m]⟩ .f32 0x00000000#32))
            (broadcastTo ⟨2, ![n, m]⟩ (shapeCast ⟨2, ![1, m]⟩ b h1) h2)))
        (ix2 i j)
      = CrossMlp.dense (fun a c => W (ix2 a c)) (fun c => b (ix1 c)) (fun a => X (ix2 i a)) j :=
  (rect_apply _ _).trans (congrArg CrossMlp.lrelu (preact_apply d hlc hrc hln hrn hlb hrb hlt h1 h2 X W b i j))

end Pieces

section CrossPieces
variable {n k m : Nat}

/-- A product with a one-column weight, laid along every column, at (i, j): row i against the column. -/
private theorem dotCol_apply (d : DotDims ⟨2, ![n, k]⟩ ⟨2, ![k, 1]⟩ ⟨2, ![n, 1]⟩)
    (hlc : d.lhsContracting = [1]) (hrc : d.rhsContracting = [0])
    (hln : d.lhsNonContracting = [0]) (hrn : d.rhsNonContracting = [1])
    (hlb : d.lhsBatch = []) (hrb : d.rhsBatch = [])
    (hlt : FTy.bits .bf16 < FTy.bits .f32)
    (hb : (⟨2, ![n, 1]⟩ : Shape).Broadcasts ⟨2, ![n, m]⟩)
    (X : FVec Ideal ⟨2, ![n, k]⟩ .f32) (w : FVec Ideal ⟨2, ![k, 1]⟩ .bf16) (i : Fin n) (j : Fin m) :
    broadcastTo ⟨2, ![n, m]⟩ (matmul d none (truncf .bf16 X hlt) w (constant ⟨2, ![n, 1]⟩ .f32 0x00000000#32)) hb (ix2 i j)
      = ∑ a : Fin k, X (ix2 i a) * w (ix2 a (0 : Fin 1)) :=
  (bcastCol_kernel_apply hb _ i j).trans (matmul_zero_rows_apply d hlc hrc hln hrn hlb hrb none _ w i 0)

/-- A cross-compress step without its bias: it j * (hd · wa) + hd j * (it · wb). -/
private def crossCore {n : Nat} (wa wb : Fin n → EReal) (it hd : Fin n → EReal) (j : Fin n) : EReal :=
  it j * (∑ k, hd k * wa k) + hd j * (∑ k, it k * wb k)

/-- The kernel's cross-compress step before its bias, at (i, j). -/
private theorem crossCoreK_apply (d : DotDims ⟨2, ![n, m]⟩ ⟨2, ![m, 1]⟩ ⟨2, ![n, 1]⟩)
    (hlc : d.lhsContracting = [1]) (hrc : d.rhsContracting = [0])
    (hln : d.lhsNonContracting = [0]) (hrn : d.rhsNonContracting = [1])
    (hlb : d.lhsBatch = []) (hrb : d.rhsBatch = [])
    (hlt : FTy.bits .bf16 < FTy.bits .f32)
    (hb : (⟨2, ![n, 1]⟩ : Shape).Broadcasts ⟨2, ![n, m]⟩)
    (A B : FVec Ideal ⟨2, ![n, m]⟩ .f32) (wa wb : FVec Ideal ⟨2, ![m, 1]⟩ .bf16) (i : Fin n) (j : Fin m) :
    addf
        (mulf A (broadcastTo ⟨2, ![n, m]⟩
          (matmul d none (truncf .bf16 B hlt) wa (constant ⟨2, ![n, 1]⟩ .f32 0x00000000#32)) hb))
        (mulf B (broadcastTo ⟨2, ![n, m]⟩
          (matmul d none (truncf .bf16 A hlt) wb (constant ⟨2, ![n, 1]⟩ .f32 0x00000000#32)) hb))
        (ix2 i j)
      = crossCore (fun a => wa (ix2 a (0 : Fin 1))) (fun a => wb (ix2 a (0 : Fin 1)))
          (fun a => A (ix2 i a)) (fun a => B (ix2 i a)) j :=
  (addf_apply _ _ _).trans (congrArg₂ (· + ·)
    ((mulf_apply _ _ _).trans (congrArg (A (ix2 i j) * ·) (dotCol_apply d hlc hrc hln hrn hlb hrb hlt hb B wa i j)))
    ((mulf_apply _ _ _).trans (congrArg (B (ix2 i j) * ·) (dotCol_apply d hlc hrc hln hrn hlb hrb hlt hb A wb i j))))

/-- The kernel's whole cross-compress step, a one-entry bias laid everywhere, at (i, j). -/
private theorem crossK_apply (d : DotDims ⟨2, ![n, m]⟩ ⟨2, ![m, 1]⟩ ⟨2, ![n, 1]⟩)
    (hlc : d.lhsContracting = [1]) (hrc : d.rhsContracting = [0])
    (hln : d.lhsNonContracting = [0]) (hrn : d.rhsNonContracting = [1])
    (hlb : d.lhsBatch = []) (hrb : d.rhsBatch = [])
    (hlt : FTy.bits .bf16 < FTy.bits .f32)
    (hb : (⟨2, ![n, 1]⟩ : Shape).Broadcasts ⟨2, ![n, m]⟩)
    (h1 : (⟨1, ![1]⟩ : Shape).ShapeCasts ⟨2, ![1, 1]⟩) (h2 : (⟨2, ![1, 1]⟩ : Shape).Broadcasts ⟨2, ![n, m]⟩)
    (A B : FVec Ideal ⟨2, ![n, m]⟩ .f32) (wa wb : FVec Ideal ⟨2, ![m, 1]⟩ .bf16) (bias : FVec Ideal ⟨1, ![1]⟩ .f32)
    (i : Fin n) (j : Fin m) :
    addf
        (addf
          (mulf A (broadcastTo ⟨2, ![n, m]⟩
            (matmul d none (truncf .bf16 B hlt) wa (constant ⟨2, ![n, 1]⟩ .f32 0x00000000#32)) hb))
          (mulf B (broadcastTo ⟨2, ![n, m]⟩
            (matmul d none (truncf .bf16 A hlt) wb (constant ⟨2, ![n, 1]⟩ .f32 0x00000000#32)) hb)))
        (broadcastTo ⟨2, ![n, m]⟩ (shapeCast ⟨2, ![1, 1]⟩ bias h1) h2)
        (ix2 i j)
      = CrossMlp.cross (fun a => wa (ix2 a (0 : Fin 1))) (fun a => wb (ix2 a (0 : Fin 1))) (bias (ix1 (0 : Fin 1)))
          (fun a => A (ix2 i a)) (fun a => B (ix2 i a)) j :=
  (addf_apply _ _ _).trans (congrArg₂ (· + ·)
    (crossCoreK_apply d hlc hrc hln hrn hlb hrb hlt hb A B wa wb i j)
    (bcastScalar_kernel_apply h1 h2 bias i j))

end CrossPieces

/-- A dense layer depends on its row and on its bias only through their entries. -/
private theorem dense_congr {n m : Nat} (W : Fin n → Fin m → EReal) (b b' : Fin m → EReal) (x y : Fin n → EReal) (j : Fin m)
    (hb : b j = b' j) (hx : ∀ a, x a = y a) : CrossMlp.dense W b x j = CrossMlp.dense W b' y j := by
  unfold CrossMlp.dense
  rw [hb, funext hx]

/-- The first product of the user's tower: row p of the user block against the weight block. -/
theorem pay12_apply (x0 : Vec Ideal S1024x128 .f32) (x9 : Vec Ideal S128x128 .bf16) (p : Fin 1024) (j : Fin 128) :
    k0_pay12 (F := Ideal) x0 x9 (ix2 p j) = ∑ q : Fin 128, x0 (ix2 p q) * x9 (ix2 q j) := by
  unfold k0_pay12 k0_pay8
  refine (matmul_zero_rows_apply dot_S1024x128_S128x128_S1024x128_1_0_0_1_n_n rfl rfl rfl rfl rfl rfl none _ _ p j).trans ?_
  simp only [truncf_apply, shapeCast_self]

/-- The user's tower after its first product: the bias and rectifier of the first layer, then the second layer. -/
theorem pay13_apply (x9 : Vec Ideal S128x128 .bf16) (x10 : Vec Ideal S128 .f32) (v29 : FVec Ideal S1024x128 .f32)
    (p : Fin 1024) (j : Fin 128) :
    k0_pay13 (F := Ideal) (k0_pay8 x9) x10 v29 (ix2 p j)
      = CrossMlp.dense (fun k j => x9 (ix2 k j)) (fun j => x10 (ix1 j))
          (fun k => CrossMlp.lrelu (v29 (ix2 p k) + x10 (ix1 k))) j := by
  unfold k0_pay13 k0_pay8
  refine (denseK_apply dot_S1024x128_S128x128_S1024x128_1_0_0_1_n_n rfl rfl rfl rfl rfl rfl _ _ _ _ _ x10 p j).trans ?_
  simp only [shapeCast_self]
  refine congrArg (fun x => CrossMlp.dense (fun k j => x9 (ix2 k j)) (fun j => x10 (ix1 j)) x j) (funext fun a => ?_)
  exact (rect_apply _ _).trans (congrArg CrossMlp.lrelu
    ((addf_apply _ _ _).trans (congrArg (v29 (ix2 p a) + ·) (bcastRow_kernel_apply _ _ x10 p a))))

/-- The item's tower before its last bias: two cross-compress steps on the item's and head entity's rows. -/
theorem pay14_apply (v3 v5 : FVec Ideal S1024x128 .f32) (v7 v9 v11 v13 : FVec Ideal S128x1 .bf16)
    (x7 x8 : Vec Ideal S1 .f32) (p : Fin 1024) (j : Fin 128) :
    k0_pay14 (F := Ideal) v3 v5 v7 v9 v11 v13 x7 x8 (ix2 p j)
      = crossCore (fun k => v7 (ix2 k (0 : Fin 1))) (fun k => v9 (ix2 k (0 : Fin 1)))
          (CrossMlp.cross (fun k => v7 (ix2 k (0 : Fin 1))) (fun k => v9 (ix2 k (0 : Fin 1))) (x7 (ix1 (0 : Fin 1)))
            (fun k => v3 (ix2 p k)) (fun k => v5 (ix2 p k)))
          (CrossMlp.cross (fun k => v11 (ix2 k (0 : Fin 1))) (fun k => v13 (ix2 k (0 : Fin 1))) (x8 (ix1 (0 : Fin 1)))
            (fun k => v3 (ix2 p k)) (fun k => v5 (ix2 p k))) j := by
  unfold k0_pay14
  refine (crossCoreK_apply dot_S1024x128_S128x1_S1024x1_1_0_0_1_n_n rfl rfl rfl rfl rfl rfl _ _ _ _ v7 v9 p j).trans ?_
  refine congrArg₂ (fun a b => crossCore (fun k => v7 (ix2 k (0 : Fin 1))) (fun k => v9 (ix2 k (0 : Fin 1))) a b j)
    (funext fun a => ?_) (funext fun a => ?_)
  · exact crossK_apply dot_S1024x128_S128x1_S1024x1_1_0_0_1_n_n rfl rfl rfl rfl rfl rfl _ _ _ _ v3 v5 v7 v9 x7 p a
  · exact crossK_apply dot_S1024x128_S128x1_S1024x1_1_0_0_1_n_n rfl rfl rfl rfl rfl rfl _ _ _ _ v3 v5 v11 v13 x8 p a

/-- The last three layers over the two towers' rows set side by side, the item's tower taking its last bias first. -/
theorem pay1_apply (x7 : Vec Ideal S1 .f32) (v20 : FVec Ideal S256x256 .bf16) (x12 : Vec Ideal S256 .f32)
    (v23 : FVec Ideal S256x128 .bf16) (x14 : Vec Ideal S128 .f32) (v26 : FVec Ideal S128x1 .bf16) (x16 : Vec Ideal S1 .f32)
    (v69 v78 : FVec Ideal S1024x128 .f32) (p : Fin 1024) :
    k0_pay1 (F := Ideal) x7 v20 x12 v23 x14 v26 x16 v69 v78 (ix2 p (0 : Fin 1))
      = CrossMlp.dense (fun k j => v26 (ix2 k j)) (fun _ => x16 (ix1 (0 : Fin 1)))
          (CrossMlp.dense (fun k j => v23 (ix2 k j)) (fun j => x14 (ix1 j))
            (CrossMlp.dense (fun k j => v20 (ix2 k j)) (fun j => x12 (ix1 j))
              (cat (fun k => v69 (ix2 p k)) (fun k => v78 (ix2 p k) + x7 (ix1 (0 : Fin 1)))))) 0 := by
  unfold k0_pay1
  refine (denseK_apply dot_S1024x128_S128x1_S1024x1_1_0_0_1_n_n rfl rfl rfl rfl rfl rfl _ _ _ _ v26 x16 p 0).trans
    (dense_congr _ _ _ _ _ _ rfl fun a => ?_)
  refine (denseK_apply dot_S1024x256_S256x128_S1024x128_1_0_0_1_n_n rfl rfl rfl rfl rfl rfl _ _ _ _ v23 x14 p a).trans
    (dense_congr _ _ _ _ _ _ rfl fun a' => ?_)
  refine (denseK_apply dot_S1024x256_S256x256_S1024x256_1_0_0_1_n_n rfl rfl rfl rfl rfl rfl _ _ _ _ v20 x12 p a').trans
    (dense_congr _ _ _ _ _ _ rfl fun a'' => ?_)
  refine (concat_cols_apply _ v69 _ p a'').trans ?_
  refine congrArg (fun y => cat (fun k => v69 (ix2 p k)) y a'') (funext fun k => ?_)
  exact (addf_apply _ _ _).trans (congrArg (v78 (ix2 p k) + ·) (bcastScalar_kernel_apply _ _ x7 p k))

/-- Entry (p, 0) of the stored block is the network's value at row p of the three input blocks. -/
theorem pay_apply (x0 x1 x2 : Vec Ideal S1024x128 .f32) (x3 x4 x5 x6 : Vec Ideal S128x1 .bf16) (x7 x8 : Vec Ideal S1 .f32)
    (x9 : Vec Ideal S128x128 .bf16) (x10 : Vec Ideal S128 .f32) (x11 : Vec Ideal S256x256 .bf16) (x12 : Vec Ideal S256 .f32)
    (x13 : Vec Ideal S256x128 .bf16) (x14 : Vec Ideal S128 .f32) (x15 : Vec Ideal S128x1 .bf16) (x16 : Vec Ideal S1 .f32)
    (p : Fin 1024) :
    k0_pay1 (F := Ideal) x7 (k0_pay9 x11) x12 (k0_pay10 x13) x14 (k0_pay11 x15) x16
        (k0_pay13 (k0_pay8 x9) x10 (k0_pay12 x0 x9))
        (k0_pay14 (k0_pay2 x1) (k0_pay3 x2) (k0_pay4 x3) (k0_pay5 x4) (k0_pay6 x5) (k0_pay7 x6) x7 x8)
        (ix2 p (0 : Fin 1))
      = Cert.CrossMlp.final (fun k j => x9 (ix2 k j)) (fun j => x10 (ix1 j))
          (fun k => x3 (ix2 k (0 : Fin 1))) (fun k => x4 (ix2 k (0 : Fin 1)))
          (fun k => x5 (ix2 k (0 : Fin 1))) (fun k => x6 (ix2 k (0 : Fin 1)))
          (x7 (ix1 (0 : Fin 1))) (x8 (ix1 (0 : Fin 1)))
          (fun k j => x11 (ix2 k j)) (fun j => x12 (ix1 j))
          (fun k j => x13 (ix2 k j)) (fun j => x14 (ix1 j))
          (fun k j => x15 (ix2 k j)) (fun _ => x16 (ix1 (0 : Fin 1)))
          (fun k => x0 (ix2 p k)) (fun k => x1 (ix2 p k)) (fun k => x2 (ix2 p k)) := by
  -- the user's tower at row p: two dense layers with the same weights
  have hu : (fun k => k0_pay13 (F := Ideal) (k0_pay8 x9) x10 (k0_pay12 x0 x9) (ix2 p k))
      = CrossMlp.dense (fun k j => x9 (ix2 k j)) (fun j => x10 (ix1 j))
          (CrossMlp.dense (fun k j => x9 (ix2 k j)) (fun j => x10 (ix1 j)) (fun k => x0 (ix2 p k))) :=
    funext fun j => (pay13_apply x9 x10 _ p j).trans
      (dense_congr _ _ _ _ _ _ rfl fun a => congrArg (fun t => CrossMlp.lrelu (t + x10 (ix1 a))) (pay12_apply x0 x9 p a))
  -- the item's tower at row p: the second cross-compress step takes its bias here
  have hc : (fun k => k0_pay14 (F := Ideal) (k0_pay2 x1) (k0_pay3 x2) (k0_pay4 x3) (k0_pay5 x4) (k0_pay6 x5) (k0_pay7 x6)
        x7 x8 (ix2 p k) + x7 (ix1 (0 : Fin 1)))
      = CrossMlp.cross (fun k => x3 (ix2 k (0 : Fin 1))) (fun k => x4 (ix2 k (0 : Fin 1))) (x7 (ix1 (0 : Fin 1)))
          (CrossMlp.cross (fun k => x3 (ix2 k (0 : Fin 1))) (fun k => x4 (ix2 k (0 : Fin 1))) (x7 (ix1 (0 : Fin 1)))
            (fun k => x1 (ix2 p k)) (fun k => x2 (ix2 p k)))
          (CrossMlp.cross (fun k => x5 (ix2 k (0 : Fin 1))) (fun k => x6 (ix2 k (0 : Fin 1))) (x8 (ix1 (0 : Fin 1)))
            (fun k => x1 (ix2 p k)) (fun k => x2 (ix2 p k))) :=
    funext fun j => by
      refine (congrArg (· + x7 (ix1 (0 : Fin 1))) (pay14_apply _ _ _ _ _ _ x7 x8 p j)).trans ?_
      simp only [k0_pay2, k0_pay3, k0_pay4, k0_pay5, k0_pay6, k0_pay7, shapeCast_self]
      rfl
  refine (pay1_apply x7 _ x12 _ x14 _ x16 _ _ p).trans ?_
  rw [hu, hc]
  simp only [k0_pay9, k0_pay10, k0_pay11, shapeCast_self]
  rfl

end Cert.KernelIdeal.Rows

end
-- ==== Proof.KernelBlocks.lean ====
/-
  The arrays and blocks of the kernel's one region.

  Grid point t stages rows 1024 t … 1024 t + 1023 of the three gathered arrays and every weight array whole, and writes
  back the 1024 × 1 block of the result at the same rows: the printed index maps decided over the sixteen points, and
  each staged block read as rows of its array.
-/
import proofs.«111562_j21268678050244_1_alg».proof.Proof.Gen.KernelIdeal.Frame
import proofs.«111562_j21268678050244_1_alg».proof.Proof.KernelRows
import proofs.«111562_j21268678050244_1_alg».proof.Proof.CrossMlp
import Idealize.ShloMosaic.Lib.Pipeline.Value
import Idealize.ShloMosaic.Lib.StableHlo.Run

set_option maxRecDepth 16384

noncomputable section

namespace Cert.KernelIdeal.Array

open Cert.KernelIdeal Cert.KernelIdeal.Gen Idealize.ShloMosaic Idealize.ShloMosaic.TcCoe Idealize.SL.Sem
open Idealize.ShloMosaic.ValueIdx Idealize.ShloMosaic.RowOps
open Idealize.ShloMosaic.Pipeline (Dat)

variable (m : (ℓ : Loc nD τ sig) → Buf (Elt Ideal) ℓ) (ρ : Dev nD → PrngReg)

/-! ## The arrays as the region finds them, at their literal types -/

abbrev aU (c : Dev nD) : FVec Ideal S16384x128 .f32 := V m c main_v6
abbrev aI (c : Dev nD) : FVec Ideal S16384x128 .f32 := V m c main_v13
abbrev aH (c : Dev nD) : FVec Ideal S16384x128 .f32 := V m c main_v20
abbrev aWvv (c : Dev nD) : FVec Ideal S128x1 .bf16 := V m c main_v21
abbrev aWev (c : Dev nD) : FVec Ideal S128x1 .bf16 := V m c main_v22
abbrev aWve (c : Dev nD) : FVec Ideal S128x1 .bf16 := V m c main_v23
abbrev aWee (c : Dev nD) : FVec Ideal S128x1 .bf16 := V m c main_v24
abbrev aBv (c : Dev nD) : FVec Ideal S1 .f32 := V m c main_arg10
abbrev aBe (c : Dev nD) : FVec Ideal S1 .f32 := V m c main_arg11
abbrev aWu (c : Dev nD) : FVec Ideal S128x128 .bf16 := V m c main_v26
abbrev aBu (c : Dev nD) : FVec Ideal S128 .f32 := V m c main_arg13
abbrev aW0 (c : Dev nD) : FVec Ideal S256x256 .bf16 := V m c main_v28
abbrev aB0 (c : Dev nD) : FVec Ideal S256 .f32 := V m c main_arg15
abbrev aW1 (c : Dev nD) : FVec Ideal S256x128 .bf16 := V m c main_v30
abbrev aB1 (c : Dev nD) : FVec Ideal S128 .f32 := V m c main_arg17
abbrev aW2 (c : Dev nD) : FVec Ideal S128x1 .bf16 := V m c main_v32
abbrev aB2 (c : Dev nD) : FVec Ideal S1 .f32 := V m c main_arg19

/-- The network at row i of the arrays. -/
def rowNet (c : Dev nD) (i : Fin 16384) : EReal :=
  Cert.CrossMlp.final (fun k j => aWu m c (ix2 k j)) (fun j => aBu m c (ix1 j))
    (fun k => aWvv m c (ix2 k (0 : Fin 1))) (fun k => aWev m c (ix2 k (0 : Fin 1)))
    (fun k => aWve m c (ix2 k (0 : Fin 1))) (fun k => aWee m c (ix2 k (0 : Fin 1)))
    (aBv m c (ix1 (0 : Fin 1))) (aBe m c (ix1 (0 : Fin 1)))
    (fun k j => aW0 m c (ix2 k j)) (fun j => aB0 m c (ix1 j))
    (fun k j => aW1 m c (ix2 k j)) (fun j => aB1 m c (ix1 j))
    (fun k j => aW2 m c (ix2 k j)) (fun _ => aB2 m c (ix1 (0 : Fin 1)))
    (fun k => aU m c (ix2 i k)) (fun k => aI m c (ix2 i k)) (fun k => aH m c (ix2 i k))

/-- What the result array ends holding: at (i, 0), the network at row i. -/
def colNet (c : Dev nD) : S16384x1.Idx → EReal := fun idx => rowNet m c (idx 0)

theorem hz2 : (![0, 0] : Fin 2 → Nat) = fun _ => 0 := funext fun a => by fin_cases a <;> rfl
theorem hz1 : (![0] : Fin 1 → Nat) = fun _ => 0 := funext fun a => by fin_cases a; rfl

/-- The printed index maps over the sixteen points: the three row windows move with the result's window, every weight
    window stays at block 0, and the result's block index is the point's number. -/
theorem idx_facts : ∀ t : Fin cfg0.N,
    win0_0.index t (0 : Fin 2) = win0_17.index t (0 : Fin 2) ∧ win0_0.index t (1 : Fin 2) = 0
    ∧ win0_1.index t (0 : Fin 2) = win0_17.index t (0 : Fin 2) ∧ win0_1.index t (1 : Fin 2) = 0
    ∧ win0_2.index t (0 : Fin 2) = win0_17.index t (0 : Fin 2) ∧ win0_2.index t (1 : Fin 2) = 0
    ∧ win0_17.index t (1 : Fin 2) = 0 ∧ win0_17.index t (0 : Fin 2) ≤ 15
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 1) = 0 ∧ win0_8.index t (0 : Fin 1) = 0
    ∧ win0_9.index t (0 : Fin 2) = 0 ∧ win0_9.index t (1 : Fin 2) = 0
    ∧ win0_10.index t (0 : Fin 1) = 0
    ∧ win0_11.index t (0 : Fin 2) = 0 ∧ win0_11.index t (1 : Fin 2) = 0
    ∧ win0_12.index t (0 : Fin 1) = 0
    ∧ win0_13.index t (0 : Fin 2) = 0 ∧ win0_13.index t (1 : Fin 2) = 0
    ∧ win0_14.index t (0 : Fin 1) = 0
    ∧ win0_15.index t (0 : Fin 2) = 0 ∧ win0_15.index t (1 : Fin 2) = 0
    ∧ win0_16.index t (0 : Fin 1) = 0 :=
  (by decide +kernel : ∀ t : Fin grid0.N, _)

/-- Every block of the result's column is some point's. -/
theorem idx_onto : ∀ q0 : Fin 16, ∃ t : Fin cfg0.N, win0_17.index t = ![q0.val, 0] :=
  (by decide +kernel : ∀ q0 : Fin 16, ∃ t : Fin grid0.N, win0_17.index t = ![q0.val, 0])

/-! ## The staged blocks at their literal types -/

abbrev bU (c : Dev nD) (t : Fin cfg0.N) : Vec Ideal S1024x128 .f32 := iblk m c 0 t
abbrev bI (c : Dev nD) (t : Fin cfg0.N) : Vec Ideal S1024x128 .f32 := iblk m c 1 t
abbrev bH (c : Dev nD) (t : Fin cfg0.N) : Vec Ideal S1024x128 .f32 := iblk m c 2 t
abbrev bWvv (c : Dev nD) (t : Fin cfg0.N) : Vec Ideal S128x1 .bf16 := iblk m c 3 t
abbrev bWev (c : Dev nD) (t : Fin cfg0.N) : Vec Ideal S128x1 .bf16 := iblk m c 4 t
abbrev bWve (c : Dev nD) (t : Fin cfg0.N) : Vec Ideal S128x1 .bf16 := iblk m c 5 t
abbrev bWee (c : Dev nD) (t : Fin cfg0.N) : Vec Ideal S128x1 .bf16 := iblk m c 6 t
abbrev bBv (c : Dev nD) (t : Fin cfg0.N) : Vec Ideal S1 .f32 := iblk m c 7 t
abbrev bBe (c : Dev nD) (t : Fin cfg0.N) : Vec Ideal S1 .f32 := iblk m c 8 t
abbrev bWu (c : Dev nD) (t : Fin cfg0.N) : Vec Ideal S128x128 .bf16 := iblk m c 9 t
abbrev bBu (c : Dev nD) (t : Fin cfg0.N) : Vec Ideal S128 .f32 := iblk m c 10 t
abbrev bW0 (c : Dev nD) (t : Fin cfg0.N) : Vec Ideal S256x256 .bf16 := iblk m c 11 t
abbrev bB0 (c : Dev nD) (t : Fin cfg0.N) : Vec Ideal S256 .f32 := iblk m c 12 t
abbrev bW1 (c : Dev nD) (t : Fin cfg0.N) : Vec Ideal S256x128 .bf16 := iblk m c 13 t
abbrev bB1 (c : Dev nD) (t : Fin cfg0.N) : Vec Ideal S128 .f32 := iblk m c 14 t
abbrev bW2 (c : Dev nD) (t : Fin cfg0.N) : Vec Ideal S128x1 .bf16 := iblk m c 15 t
abbrev bB2 (c : Dev nD) (t : Fin cfg0.N) : Vec Ideal S1 .f32 := iblk m c 16 t

/-- The row of the result array that row p of point t's block is. -/
abbrev rowOf (t : Fin cfg0.N) (p : Fin 1024) : Fin 16384 := (((cfg0.win 17).blk t).view.emb (ix2 p (0 : Fin 1))) 0

/-- Row p of the users' block at point t is row `rowOf t p` of the users' array. -/
theorem bU_apply (c : Dev nD) (t : Fin cfg0.N) (p : Fin 1024) (k : Fin 128) :
    bU m c t (ix2 p k) = aU m c (ix2 (rowOf t p) k) := by
  obtain ⟨e0, e1, -⟩ := idx_facts t
  show V m c main_v6 (((cfg0.win 0).blk t).view.emb (ix2 p k)) = V m c main_v6 (ix2 (rowOf t p) k)
  have h : ((cfg0.win 0).blk t).view.emb (ix2 p k) = ix2 (rowOf t p) k := by
    funext a; apply Fin.ext
    match a with
    | ⟨0, _⟩ => show win0_0.index t (0 : Fin 2) * 1024 + 1 * p.val = win0_17.index t (0 : Fin 2) * 1024 + 1 * p.val; omega
    | ⟨1, _⟩ => show win0_0.index t (1 : Fin 2) * 128 + 1 * k.val = k.val; omega
  rw [h]

theorem bI_apply (c : Dev nD) (t : Fin cfg0.N) (p : Fin 1024) (k : Fin 128) :
    bI m c t (ix2 p k) = aI m c (ix2 (rowOf t p) k) := by
  obtain ⟨e0, e1, e2, e3, e4, e5, -⟩ := idx_facts t
  show V m c main_v13 (((cfg0.win 1).blk t).view.emb (ix2 p k)) = V m c main_v13 (ix2 (rowOf t p) k)
  have h : ((cfg0.win 1).blk t).view.emb (ix2 p k) = ix2 (rowOf t p) k := by
    funext a; apply Fin.ext
    match a with
    | ⟨0, _⟩ => show win0_1.index t (0 : Fin 2) * 1024 + 1 * p.val = win0_17.index t (0 : Fin 2) * 1024 + 1 * p.val; omega
    | ⟨1, _⟩ => show win0_1.index t (1 : Fin 2) * 128 + 1 * k.val = k.val; omega
  rw [h]

theorem bH_apply (c : Dev nD) (t : Fin cfg0.N) (p : Fin 1024) (k : Fin 128) :
    bH m c t (ix2 p k) = aH m c (ix2 (rowOf t p) k) := by
  obtain ⟨e0, e1, e2, e3, e4, e5, -⟩ := idx_facts t
  show V m c main_v20 (((cfg0.win 2).blk t).view.emb (ix2 p k)) = V m c main_v20 (ix2 (rowOf t p) k)
  have h : ((cfg0.win 2).blk t).view.emb (ix2 p k) = ix2 (rowOf t p) k := by
    funext a; apply Fin.ext
    match a with
    | ⟨0, _⟩ => show win0_2.index t (0 : Fin 2) * 1024 + 1 * p.val = win0_17.index t (0 : Fin 2) * 1024 + 1 * p.val; omega
    | ⟨1, _⟩ => show win0_2.index t (1 : Fin 2) * 128 + 1 * k.val = k.val; omega
  rw [h]

/-! Every weight window stages its whole array at every point. -/

theorem bWvv_eq (c : Dev nD) (t : Fin cfg0.N) : bWvv m c t = aWvv m c := by
  have hf := idx_facts t
  funext y
  show V m c main_v21 (((cfg0.win 3).blk t).view.emb y) = V m c main_v21 y
  have h : ((cfg0.win 3).blk t).view.emb y = y := by
    funext a; apply Fin.ext
    match a with
    | ⟨0, _⟩ => show win0_3.index t (0 : Fin 2) * 128 + 1 * (y 0).val = (y 0).val; omega
    | ⟨1, _⟩ => show win0_3.index t (1 : Fin 2) * 1 + 1 * (y 1).val = (y 1).val; omega
  rw [h]

theorem bWev_eq (c : Dev nD) (t : Fin cfg0.N) : bWev m c t = aWev m c := by
  have hf := idx_facts t
  funext y
  show V m c main_v22 (((cfg0.win 4).blk t).view.emb y) = V m c main_v22 y
  have h : ((cfg0.win 4).blk t).view.emb y = y := by
    funext a; apply Fin.ext
    match a with
    | ⟨0, _⟩ => show win0_4.index t (0 : Fin 2) * 128 + 1 * (y 0).val = (y 0).val; omega
    | ⟨1, _⟩ => show win0_4.index t (1 : Fin 2) * 1 + 1 * (y 1).val = (y 1).val; omega
  rw [h]

theorem bWve_eq (c : Dev nD) (t : Fin cfg0.N) : bWve m c t = aWve m c := by
  have hf := idx_facts t
  funext y
  show V m c main_v23 (((cfg0.win 5).blk t).view.emb y) = V m c main_v23 y
  have h : ((cfg0.win 5).blk t).view.emb y = y := by
    funext a; apply Fin.ext
    match a with
    | ⟨0, _⟩ => show win0_5.index t (0 : Fin 2) * 128 + 1 * (y 0).val = (y 0).val; omega
    | ⟨1, _⟩ => show win0_5.index t (1 : Fin 2) * 1 + 1 * (y 1).val = (y 1).val; omega
  rw [h]

theorem bWee_eq (c : Dev nD) (t : Fin cfg0.N) : bWee m c t = aWee m c := by
  have hf := idx_facts t
  funext y
  show V m c main_v24 (((cfg0.win 6).blk t).view.emb y) = V m c main_v24 y
  have h : ((cfg0.win 6).blk t).view.emb y = y := by
    funext a; apply Fin.ext
    match a with
    | ⟨0, _⟩ => show win0_6.index t (0 : Fin 2) * 128 + 1 * (y 0).val = (y 0).val; omega
    | ⟨1, _⟩ => show win0_6.index t (1 : Fin 2) * 1 + 1 * (y 1).val = (y 1).val; omega
  rw [h]

theorem bBv_eq (c : Dev nD) (t : Fin cfg0.N) : bBv m c t = aBv m c := by
  have hf := idx_facts t
  funext y
  show V m c main_arg10 (((cfg0.win 7).blk t).view.emb y) = V m c main_arg10 y
  have h : ((cfg0.win 7).blk t).view.emb y = y := by
    funext a; apply Fin.ext
    match a with
    | ⟨0, _⟩ => show win0_7.index t (0 : Fin 1) * 1 + 1 * (y 0).val = (y 0).val; omega
  rw [h]

theorem bBe_eq (c : Dev nD) (t : Fin cfg0.N) : bBe m c t = aBe m c := by
  have hf := idx_facts t
  funext y
  show V m c main_arg11 (((cfg0.win 8).blk t).view.emb y) = V m c main_arg11 y
  have h : ((cfg0.win 8).blk t).view.emb y = y := by
    funext a; apply Fin.ext
    match a with
    | ⟨0, _⟩ => show win0_8.index t (0 : Fin 1) * 1 + 1 * (y 0).val = (y 0).val; omega
  rw [h]

theorem bWu_eq (c : Dev nD) (t : Fin cfg0.N) : bWu m c t = aWu m c := by
  have hf := idx_facts t
  funext y
  show V m c main_v26 (((cfg0.win 9).blk t).view.emb y) = V m c main_v26 y
  have h : ((cfg0.win 9).blk t).view.emb y = y := by
    funext a; apply Fin.ext
    match a with
    | ⟨0, _⟩ => show win0_9.index t (0 : Fin 2) * 128 + 1 * (y 0).val = (y 0).val; omega
    | ⟨1, _⟩ => show win0_9.index t (1 : Fin 2) * 128 + 1 * (y 1).val = (y 1).val; omega
  rw [h]

theorem bBu_eq (c : Dev nD) (t : Fin cfg0.N) : bBu m c t = aBu m c := by
  have hf := idx_facts t
  funext y
  show V m c main_arg13 (((cfg0.win 10).blk t).view.emb y) = V m c main_arg13 y
  have h : ((cfg0.win 10).blk t).view.emb y = y := by
    funext a; apply Fin.ext
    match a with
    | ⟨0, _⟩ => show win0_10.index t (0 : Fin 1) * 128 + 1 * (y 0).val = (y 0).val; omega
  rw [h]

theorem bW0_eq (c : Dev nD) (t : Fin cfg0.N) : bW0 m c t = aW0 m c := by
  have hf := idx_facts t
  funext y
  show V m c main_v28 (((cfg0.win 11).blk t).view.emb y) = V m c main_v28 y
  have h : ((cfg0.win 11).blk t).view.emb y = y := by
    funext a; apply Fin.ext
    match a with
    | ⟨0, _⟩ => show win0_11.index t (0 : Fin 2) * 256 + 1 * (y 0).val = (y 0).val; omega
    | ⟨1, _⟩ => show win0_11.index t (1 : Fin 2) * 256 + 1 * (y 1).val = (y 1).val; omega
  rw [h]

theorem bB0_eq (c : Dev nD) (t : Fin cfg0.N) : bB0 m c t = aB0 m c := by
  have hf := idx_facts t
  funext y
  show V m c main_arg15 (((cfg0.win 12).blk t).view.emb y) = V m c main_arg15 y
  have h : ((cfg0.win 12).blk t).view.emb y = y := by
    funext a; apply Fin.ext
    match a with
    | ⟨0, _⟩ => show win0_12.index t (0 : Fin 1) * 256 + 1 * (y 0).val = (y 0).val; omega
  rw [h]

theorem bW1_eq (c : Dev nD) (t : Fin cfg0.N) : bW1 m c t = aW1 m c := by
  have hf := idx_facts t
  funext y
  show V m c main_v30 (((cfg0.win 13).blk t).view.emb y) = V m c main_v30 y
  have h : ((cfg0.win 13).blk t).view.emb y = y := by
    funext a; apply Fin.ext
    match a with
    | ⟨0, _⟩ => show win0_13.index t (0 : Fin 2) * 256 + 1 * (y 0).val = (y 0).val; omega
    | ⟨1, _⟩ => show win0_13.index t (1 : Fin 2) * 128 + 1 * (y 1).val = (y 1).val; omega
  rw [h]

theorem bB1_eq (c : Dev nD) (t : Fin cfg0.N) : bB1 m c t = aB1 m c := by
  have hf := idx_facts t
  funext y
  show V m c main_arg17 (((cfg0.win 14).blk t).view.emb y) = V m c main_arg17 y
  have h : ((cfg0.win 14).blk t).view.emb y = y := by
    funext a; apply Fin.ext
    match a with
    | ⟨0, _⟩ => show win0_14.index t (0 : Fin 1) * 128 + 1 * (y 0).val = (y 0).val; omega
  rw [h]

theorem bW2_eq (c : Dev nD) (t : Fin cfg0.N) : bW2 m c t = aW2 m c := by
  have hf := idx_facts t
  funext y
  show V m c main_v32 (((cfg0.win 15).blk t).view.emb y) = V m c main_v32 y
  have h : ((cfg0.win 15).blk t).view.emb y = y := by
    funext a; apply Fin.ext
    match a with
    | ⟨0, _⟩ => show win0_15.index t (0 : Fin 2) * 128 + 1 * (y 0).val = (y 0).val; omega
    | ⟨1, _⟩ => show win0_15.index t (1 : Fin 2) * 1 + 1 * (y 1).val = (y 1).val; omega
  rw [h]

theorem bB2_eq (c : Dev nD) (t : Fin cfg0.N) : bB2 m c t = aB2 m c := by
  have hf := idx_facts t
  funext y
  show V m c main_arg19 (((cfg0.win 16).blk t).view.emb y) = V m c main_arg19 y
  have h : ((cfg0.win 16).blk t).view.emb y = y := by
    funext a; apply Fin.ext
    match a with
    | ⟨0, _⟩ => show win0_16.index t (0 : Fin 1) * 1 + 1 * (y 0).val = (y 0).val; omega
  rw [h]

end Cert.KernelIdeal.Array

end
-- ==== Proof.KernelArray.lean ====
/-
  The kernel's result array, read off its frame run.

  Row p of the block that grid point t writes back is the row-wise network at row p of the staged blocks, hence at row
  1024 t + p of the arrays; the sixteen blocks tile the result array, so the array ends at the network of every row. The
  result vector is that column read entry by entry.
-/
import proofs.«111562_j21268678050244_1_alg».proof.Proof.Gen.KernelIdeal.Frame
import proofs.«111562_j21268678050244_1_alg».proof.Proof.KernelRows
import proofs.«111562_j21268678050244_1_alg».proof.Proof.KernelBlocks
import proofs.«111562_j21268678050244_1_alg».proof.Proof.CrossMlp
import Idealize.ShloMosaic.Lib.Pipeline.Value
import Idealize.ShloMosaic.Lib.StableHlo.Run

set_option maxRecDepth 16384

noncomputable section

namespace Cert.KernelIdeal.Array

open Cert.KernelIdeal Cert.KernelIdeal.Gen Idealize.ShloMosaic Idealize.ShloMosaic.TcCoe Idealize.SL.Sem
open Idealize.ShloMosaic.ValueIdx Idealize.ShloMosaic.RowOps
open Idealize.ShloMosaic.Pipeline (Dat)

variable (m : (ℓ : Loc nD τ sig) → Buf (Elt Ideal) ℓ) (ρ : Dev nD → PrngReg)

/-! ## From the blocks to the array -/

/-- Row p of the block point t stores is the network at row `rowOf t p` of the arrays: the staged blocks are those rows
    of the three gathered arrays and the weight arrays whole. -/
theorem stored_row (c : Dev nD) (t : Fin cfg0.N) (p : Fin 1024) :
    k0_pay1 (F := Ideal) (bBv m c t) (k0_pay9 (bW0 m c t)) (bB0 m c t) (k0_pay10 (bW1 m c t)) (bB1 m c t) (k0_pay11 (bW2 m c t)) (bB2 m c t)
      (k0_pay13 (k0_pay8 (bWu m c t)) (bBu m c t) (k0_pay12 (bU m c t) (bWu m c t)))
      (k0_pay14 (k0_pay2 (bI m c t)) (k0_pay3 (bH m c t)) (k0_pay4 (bWvv m c t)) (k0_pay5 (bWev m c t)) (k0_pay6 (bWve m c t))
        (k0_pay7 (bWee m c t)) (bBv m c t) (bBe m c t)) (ix2 p (0 : Fin 1))
    = colNet m c (((cfg0.win 17).blk t).view.emb (ix2 p (0 : Fin 1))) := by
  refine (Cert.KernelIdeal.Rows.pay_apply (bU m c t) (bI m c t) (bH m c t) (bWvv m c t) (bWev m c t) (bWve m c t) (bWee m c t)
    (bBv m c t) (bBe m c t) (bWu m c t) (bBu m c t) (bW0 m c t) (bB0 m c t) (bW1 m c t) (bB1 m c t) (bW2 m c t) (bB2 m c t) p).trans ?_
  unfold colNet rowNet
  simp only [bU_apply, bI_apply, bH_apply, bWvv_eq, bWev_eq, bWve_eq, bWee_eq, bBv_eq, bBe_eq, bWu_eq, bBu_eq, bW0_eq, bB0_eq,
    bW1_eq, bB1_eq, bW2_eq, bB2_eq]

/-- Contents X of the result's block whose row p is G at the array index of that row are, cut to what the write-back
    moves, block t of G — for any array G. -/
theorem cut_read (t : Fin cfg0.N) (X : Vec Ideal S1024x1 .f32) (G : FVec Ideal S16384x1 .f32)
    (h : ∀ p : Fin 1024, X (ix2 p (0 : Fin 1)) = G (((cfg0.win 17).blk t).view.emb (ix2 p (0 : Fin 1)))) :
    (cfg0.win 17).cut (grid0.coords t) X = ((cfg0.win 17).blk t).view.read (Elt Ideal) G := by
  funext y
  obtain ⟨p, q, rfl⟩ : ∃ (p : Fin 1024) (q : Fin 1), y = ix2 p q := ⟨y 0, y 1, eq_ix2 (n0 := 1024) (n1 := 1) y⟩
  obtain rfl : q = 0 := Subsingleton.elim _ _
  exact h p

/-- What point t writes back is block t of `colNet`. -/
theorem flushed_eq (c : Dev nD) (t : Fin cfg0.N) :
    (dats m 0 c).flushed 17 t = ((cfg0.win 17).blk t).view.read (Elt Ideal) (colNet m c) := by
  show (cfg0.win 17).cut (grid0.coords t) ((dats m 0 c).after 17 t) = _
  rw [after0_17]
  unfold out0_17
  rw [View.canon_unit_zero hz2]
  simp only [View.ld_unit_zero (S := S1024x128) hz2, View.ld_unit_zero (S := S128x1) hz2, View.ld_unit_zero (S := S1) hz1,
    View.ld_unit_zero (S := S128x128) hz2, View.ld_unit_zero (S := S128) hz1, View.ld_unit_zero (S := S256x256) hz2,
    View.ld_unit_zero (S := S256) hz1, View.ld_unit_zero (S := S256x128) hz2]
  exact cut_read t _ (colNet m c) (stored_row m c t)

/-- An index of the result array is in point t's block iff each coordinate is in the block's range on its axis. -/
theorem mem_blk (t : Fin cfg0.N) (i : S16384x1.Idx) :
    i ∈ ((cfg0.win 17).blk t).view.set ↔ ∀ a : Fin 2, win0_17.index t a * S1024x1.size a ≤ (i a).val
      ∧ (i a).val < win0_17.index t a * S1024x1.size a + S1024x1.size a := by
  show i ∈ ((View.whole main_v33).slice (win0_17.rect t)).set ↔ _
  rw [View.set_slice_whole, Rect.mem_set_unit]
  exact Iff.rfl

/-- The sixteen blocks tile the column: row r lies in the block of point r / 1024. -/
theorem cover (i : S16384x1.Idx) :
    ∃ t : Fin cfg0.N, (cfg0.win 17).flush t = true ∧ i ∈ ((cfg0.win 17).blk t).view.set := by
  have hi0 : (i 0).val < 16384 := (i 0).isLt
  have hi1 : (i 1).val < 1 := (i 1).isLt
  obtain ⟨t, ht⟩ := idx_onto ⟨(i 0).val / 1024, by omega⟩
  have q0 : win0_17.index t (0 : Fin 2) = (i 0).val / 1024 := congrFun ht 0
  have q1 : win0_17.index t (1 : Fin 2) = 0 := congrFun ht 1
  refine ⟨t, flush0_17 t, ?_⟩
  rw [mem_blk]
  intro a
  match a with
  | ⟨0, _⟩ => show win0_17.index t (0 : Fin 2) * 1024 ≤ (i 0).val ∧ (i 0).val < win0_17.index t (0 : Fin 2) * 1024 + 1024; omega
  | ⟨1, _⟩ => show win0_17.index t (1 : Fin 2) * 1 ≤ (i 1).val ∧ (i 1).val < win0_17.index t (1 : Fin 2) * 1 + 1; omega

/-- The result array after the run is the network of every row. -/
theorem final17 (c : Dev nD) : (dats m 0 c).arrAt 17 cfg0.N = colNet m c :=
  (dats m 0 c).arrAt_eq_of_cover 17 (colNet m c) (fun t _ => flushed_eq m c t) cover

/-- The program's first result: entry i of the vector is entry (i, 0) of the column. -/
def vecNet (c : Dev nD) : S16384.Idx → EReal := fun i => colNet m c (ix2 (i 0) (0 : Fin 1))

/-- Any column G reshaped to a vector reads, at i, entry (i, 0) of G. -/
theorem reshape_read (G : FVec Ideal S16384x1 .f32) (i : S16384.Idx) :
    shapeCast S16384 G shapeCasts_S16384x1_S16384 i = G (ix2 (i 0) (0 : Fin 1)) := by
  obtain ⟨i0, rfl⟩ : ∃ i0 : Fin 16384, i = ix1 i0 := ⟨i 0, eq_ix1 (n := 16384) i⟩
  exact reshape_col_apply shapeCasts_S16384x1_S16384 G i0

end Cert.KernelIdeal.Array

end
-- ==== Proof.KernelRun.lean ====
/-
  The idealized kernel's run, read: after the region the one host line reshapes the result column to a vector, so the
  program ends with its first result at the network of every row, and its arguments as launched.
-/
import proofs.«111562_j21268678050244_1_alg».proof.Proof.KernelArray

set_option maxRecDepth 16384

noncomputable section

namespace Cert.KernelIdeal.Array

open Cert.KernelIdeal Cert.KernelIdeal.Gen Idealize.ShloMosaic Idealize.ShloMosaic.TcCoe Idealize.SL.Sem
open Idealize.ShloMosaic.ValueIdx Idealize.ShloMosaic.RowOps Idealize.ShloMosaic.StableHlo
open Idealize.ShloMosaic.Pipeline (Dat)

variable (m : (ℓ : Loc nD τ sig) → Buf (Elt Ideal) ℓ) (ρ : Dev nD → PrngReg)

/-- The region leaves the result's array at the network of every row. -/
theorem exit17 (c : Dev nD) :
    Pipeline.withArrays spec0 c (V0 m c) (fun w => (dats m 0 c).arrAt w cfg0.N) (Proc.devRef .tc main_v33) = colNet m c :=
  (Pipeline.withArrays_arr spec0 launch0.win.arr_inj c (V0 m c) (fun w => (dats m 0 c).arrAt w cfg0.N) 17).trans (final17 m c)

/-- What the line after the region leaves in the result vector. -/
theorem tail_eq (c : Dev nD) :
    Pipeline.afterTail₀ cfgs (dats m) 0 (V0 m) [hostOps1] c main_v34 = vecNet m c := by
  unfold Pipeline.afterTail₀
  show StableHlo.after hostOps1 _ (Proc.devRef .tc main_v34) = _
  after_results
  funext i
  refine Eq.trans (b := shapeCast S16384 (Pipeline.withArrays spec0 c (V0 m c) (fun w => (dats m 0 c).arrAt w cfg0.N)
    (Proc.devRef .tc main_v33)) shapeCasts_S16384x1_S16384 i) rfl ?_
  rw [exit17 m c]
  exact reshape_read (colNet m c) i

/-- At the compiled mesh, from any memory with zero counters: every weakly fair execution of the idealized kernel's
    @main terminates with its first result at the network of every row and every argument unchanged. -/
theorem run : θ_run defs (onTc (τ := τ) (main (F := Ideal))) ⟨m, fun _ => 0, ρ⟩ fun r => ∀ c : Dev nD,
      r.2.mem ((c.tc : Thread nD τ).loc main_v34) = vecNet m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun r h c => ⟨
      ((h c).2 main_v34 (Pipeline.mem_restRefs_of main_v34 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).1 7).trans (((dats m 0 c).arrAt_in 7 rfl _).trans ((A_eq m c 7).trans (V_main_arg10 m c))),
      ((h c).1 8).trans (((dats m 0 c).arrAt_in 8 rfl _).trans ((A_eq m c 8).trans (V_main_arg11 m c))),
      ((h c).2 main_arg12 (Pipeline.mem_restRefs_of main_arg12 (by decide) (by decide))).trans (W_main_arg12 m (dats m) c),
      ((h c).1 10).trans (((dats m 0 c).arrAt_in 10 rfl _).trans ((A_eq m c 10).trans (V_main_arg13 m c))),
      ((h c).2 main_arg14 (Pipeline.mem_restRefs_of main_arg14 (by decide) (by decide))).trans (W_main_arg14 m (dats m) c),
      ((h c).1 12).trans (((dats m 0 c).arrAt_in 12 rfl _).trans ((A_eq m c 12).trans (V_main_arg15 m c))),
      ((h c).2 main_arg16 (Pipeline.mem_restRefs_of main_arg16 (by decide) (by decide))).trans (W_main_arg16 m (dats m) c),
      ((h c).1 14).trans (((dats m 0 c).arrAt_in 14 rfl _).trans ((A_eq m c 14).trans (V_main_arg17 m c))),
      ((h c).2 main_arg18 (Pipeline.mem_restRefs_of main_arg18 (by decide) (by decide))).trans (W_main_arg18 m (dats m) c),
      ((h c).1 16).trans (((dats m 0 c).arrAt_in 16 rfl _).trans ((A_eq m c 16).trans (V_main_arg19 m c)))⟩)
    (run_main m ρ)

end Cert.KernelIdeal.Array

end
-- ==== Proof.RefTerm.lean ====
/-
  The reference's result as one term of its argument arrays, at any float instance.

  Three tables are read at the (wrapped) ids: `rows`. The user's rows pass two dense layers (`userLayer`), the item's
  and the head entity's rows two cross-compress steps (`crossStep`), the two are set side by side and pass three more
  dense layers (`mlp0`, `mlp1`, `mlp2`), and the one-column result is reshaped to a vector (`chain`). `out` is the
  chain at the gathered rows and the transposed weight matrices.
-/
import proofs.«111562_j21268678050244_1_alg».proof.ReferenceIdeal

noncomputable section

namespace Cert.ReferenceIdeal.Term

open Idealize.ShloMosaic Cert.ReferenceIdeal Cert.ReferenceIdeal.Facts₀

variable {F : FTy → Type} [FloatOps F] [Facts]

/-- The contents of a buffer of shape `S` and element type `e`. -/
abbrev C (S : Shape) (e : EltTy) : Type := (⟨S, e⟩ : BufTy).Contents (Elt F)

/-- Rows of a table at the ids, a negative id counted from the table's end. -/
def rows (tbl : C (F := F) S100000x128 .f32) (ids : C (F := F) S16384 .i32) : C (F := F) S16384x128 .f32 :=
  Host.gather gather_S100000x128_S16384x1_S16384x128_1_0_n_n_0_1_1128 tbl
    (broadcastInDim S16384x1 ![0] bcast_S16384_S16384x1_0
      (select (cmpi .slt ids (broadcastInDim S16384 ![] bcast_S_S16384 (constantI S_ 32 0#32)))
        (addi ids (broadcastInDim S16384 ![] bcast_S_S16384 (constantI S_ 32 100000#32))) ids))

/-- The leaky rectifier over an array: x where 0 ≤ x, the slope word times x elsewhere. -/
def leaky (S : Shape) (h : S_.BroadcastsInDim S (![] : Fin 0 → Fin S.rank)) (x : C (F := F) S .f32) : C (F := F) S .f32 :=
  select (cmpf .oge x (broadcastInDim S ![] h (constant S_ .f32 0x00000000#32))) x
    (mulf (broadcastInDim S ![] h (constant S_ .f32 0x3C23D70A#32)) x)

/-- A dense layer over the users' rows: rectifier of X · Wt + b along every row. -/
def userLayer (X : C (F := F) S16384x128 .f32) (Wt : C (F := F) S128x128 .f32) (b : C (F := F) S128 .f32) : C (F := F) S16384x128 .f32 :=
  leaky S16384x128 bcast_S_S16384x128
    (addf (Host.dotGeneral dot_S16384x128_S128x128_S16384x128_1_0_0_1_n_n none X Wt)
      (broadcastInDim S16384x128 ![0, 1] bcast_S1x128_S16384x128_0_1 (broadcastInDim S1x128 ![1] bcast_S128_S1x128_1 b)))

/-- A cross-compress step: I * (H · wa) + H * (I · wb) + bias, the products with a column laid along every column. -/
def crossStep (I H : C (F := F) S16384x128 .f32) (wa wb : C (F := F) S128x1 .f32) (bias : C (F := F) S1 .f32) : C (F := F) S16384x128 .f32 :=
  addf
    (addf
      (mulf I (broadcastInDim S16384x128 ![0, 1] bcast_S16384x1_S16384x128_0_1
        (Host.dotGeneral dot_S16384x128_S128x1_S16384x1_1_0_0_1_n_n none H wa)))
      (mulf H (broadcastInDim S16384x128 ![0, 1] bcast_S16384x1_S16384x128_0_1
        (Host.dotGeneral dot_S16384x128_S128x1_S16384x1_1_0_0_1_n_n none I wb))))
    (broadcastInDim S16384x128 ![0, 1] bcast_S1x1_S16384x128_0_1 (broadcastInDim S1x1 ![1] bcast_S1_S1x1_1 bias))

/-- The first layer after the join: 256 → 256. -/
def mlp0 (X : C (F := F) S16384x256 .f32) (Wt : C (F := F) S256x256 .f32) (b : C (F := F) S256 .f32) : C (F := F) S16384x256 .f32 :=
  leaky S16384x256 bcast_S_S16384x256
    (addf (Host.dotGeneral dot_S16384x256_S256x256_S16384x256_1_0_0_1_n_n none X Wt)
      (broadcastInDim S16384x256 ![0, 1] bcast_S1x256_S16384x256_0_1 (broadcastInDim S1x256 ![1] bcast_S256_S1x256_1 b)))

/-- The second: 256 → 128. -/
def mlp1 (X : C (F := F) S16384x256 .f32) (Wt : C (F := F) S256x128 .f32) (b : C (F := F) S128 .f32) : C (F := F) S16384x128 .f32 :=
  leaky S16384x128 bcast_S_S16384x128
    (addf (Host.dotGeneral dot_S16384x256_S256x128_S16384x128_1_0_0_1_n_n none X Wt)
      (broadcastInDim S16384x128 ![0, 1] bcast_S1x128_S16384x128_0_1 (broadcastInDim S1x128 ![1] bcast_S128_S1x128_1 b)))

/-- The third: 128 → 1. -/
def mlp2 (X : C (F := F) S16384x128 .f32) (Wt : C (F := F) S128x1 .f32) (b : C (F := F) S1 .f32) : C (F := F) S16384x1 .f32 :=
  leaky S16384x1 bcast_S_S16384x1
    (addf (Host.dotGeneral dot_S16384x128_S128x1_S16384x1_1_0_0_1_n_n none X Wt)
      (broadcastInDim S16384x1 ![0, 1] bcast_S1x1_S16384x1_0_1 (broadcastInDim S1x1 ![1] bcast_S1_S1x1_1 b)))

/-- From the three gathered arrays and the weights (the matrices already transposed) to the result vector. -/
def chain (U I H : C (F := F) S16384x128 .f32)
    (Wut : C (F := F) S128x128 .f32) (bu : C (F := F) S128 .f32)
    (wvv wev wve wee : C (F := F) S128x1 .f32) (bv be : C (F := F) S1 .f32)
    (W0t : C (F := F) S256x256 .f32) (b0 : C (F := F) S256 .f32)
    (W1t : C (F := F) S256x128 .f32) (b1 : C (F := F) S128 .f32)
    (W2t : C (F := F) S128x1 .f32) (b2 : C (F := F) S1 .f32) : C (F := F) S16384 .f32 :=
  shapeCast S16384
    (mlp2
      (mlp1
        (mlp0
          (concatenate S16384x256 1
            [⟨S16384x128, userLayer (userLayer U Wut bu) Wut bu⟩,
             ⟨S16384x128, crossStep (crossStep I H wvv wev bv) (crossStep I H wve wee be) wvv wev bv⟩]
            concatenates_S16384x128_S16384x128_S16384x256_d1)
          W0t b0)
        W1t b1)
      W2t b2)
    shapeCasts_S16384x1_S16384

/-- The reference's first result as a term of its arguments' contents. -/
def out (a0 a1 : C (F := F) S16384 .i32) (a3 a4 a5 : C (F := F) S100000x128 .f32)
    (a6 a7 a8 a9 : C (F := F) S128x1 .f32) (a10 a11 : C (F := F) S1 .f32)
    (a12 : C (F := F) S128x128 .f32) (a13 : C (F := F) S128 .f32)
    (a14 : C (F := F) S256x256 .f32) (a15 : C (F := F) S256 .f32)
    (a16 : C (F := F) S128x256 .f32) (a17 : C (F := F) S128 .f32)
    (a18 : C (F := F) S1x128 .f32) (a19 : C (F := F) S1 .f32) : C (F := F) S16384 .f32 :=
  chain (rows a3 a0) (rows a4 a1) (rows a5 a1)
    (transpose S128x128 [1, 0] a12 transposes_S128x128_S128x128_1_0) a13 a6 a7 a8 a9 a10 a11
    (transpose S256x256 [1, 0] a14 transposes_S256x256_S256x256_1_0) a15
    (transpose S256x128 [1, 0] a16 transposes_S128x256_S256x128_1_0) a17
    (transpose S128x1 [1, 0] a18 transposes_S1x128_S128x1_1_0) a19

end Cert.ReferenceIdeal.Term

end
-- ==== Proof.RefRows.lean ====
/-
  The reference's chain read at one sample: entry i of the result vector is the row-wise network at row i of the three
  gathered arrays, the weights read by their coordinates.
-/
import proofs.«111562_j21268678050244_1_alg».proof.Proof.Gen.ReferenceIdeal
import proofs.«111562_j21268678050244_1_alg».proof.Proof.RefTerm
import proofs.«111562_j21268678050244_1_alg».proof.Proof.CrossMlp

noncomputable section

namespace Cert.ReferenceIdeal.Rows

open Cert.ReferenceIdeal Cert.ReferenceIdeal.Gen Idealize.ShloMosaic Idealize.ShloMosaic.ValueIdx Idealize.ShloMosaic.RowOps

/-- The rectifier over an array, read at an index, is the rectifier of the entry there. -/
theorem leaky_apply (S : Shape) (h : S_.BroadcastsInDim S (![] : Fin 0 → Fin S.rank)) (x : FVec Ideal S .f32)
    (i : S.Idx) : Term.leaky (F := Ideal) S h x i = Cert.CrossMlp.lrelu (x i) := rfl

/-- A dense layer over the users' rows at (i, j) is the row-wise dense layer of row i. -/
theorem userLayer_apply (X : FVec Ideal S16384x128 .f32) (Wt : FVec Ideal S128x128 .f32) (b : FVec Ideal S128 .f32)
    (i : Fin 16384) (j : Fin 128) :
    Term.userLayer (F := Ideal) X Wt b (ix2 i j)
      = Cert.CrossMlp.dense (fun k j => Wt (ix2 k j)) (fun j => b (ix1 j)) (fun k => X (ix2 i k)) j := by
  unfold Term.userLayer Cert.CrossMlp.dense
  rw [leaky_apply, addf_apply, dotGeneral_rows_apply _ rfl rfl rfl rfl rfl rfl, bcastRow_host_apply]

/-- A cross-compress step at (i, j) is the row-wise step of rows i of the two arrays. -/
theorem crossStep_apply (I H : FVec Ideal S16384x128 .f32) (wa wb : FVec Ideal S128x1 .f32) (bias : FVec Ideal S1 .f32)
    (i : Fin 16384) (j : Fin 128) :
    Term.crossStep (F := Ideal) I H wa wb bias (ix2 i j)
      = Cert.CrossMlp.cross (fun k => wa (ix2 k (0 : Fin 1))) (fun k => wb (ix2 k (0 : Fin 1))) (bias (ix1 (0 : Fin 1)))
          (fun k => I (ix2 i k)) (fun k => H (ix2 i k)) j := by
  unfold Term.crossStep Cert.CrossMlp.cross
  rw [addf_apply, addf_apply, mulf_apply, mulf_apply, bcastCol_host_apply, bcastCol_host_apply,
    dotGeneral_rows_apply _ rfl rfl rfl rfl rfl rfl, dotGeneral_rows_apply _ rfl rfl rfl rfl rfl rfl,
    bcastScalar_host_apply]

/-- The first layer after the join at (i, j) is the row-wise dense layer of row i. -/
theorem mlp0_apply (X : FVec Ideal S16384x256 .f32) (Wt : FVec Ideal S256x256 .f32) (b : FVec Ideal S256 .f32)
    (i : Fin 16384) (j : Fin 256) :
    Term.mlp0 (F := Ideal) X Wt b (ix2 i j)
      = Cert.CrossMlp.dense (fun k j => Wt (ix2 k j)) (fun j => b (ix1 j)) (fun k => X (ix2 i k)) j := by
  unfold Term.mlp0 Cert.CrossMlp.dense
  rw [leaky_apply, addf_apply, dotGeneral_rows_apply _ rfl rfl rfl rfl rfl rfl, bcastRow_host_apply]

/-- The second layer after the join at (i, j) is the row-wise dense layer of row i. -/
theorem mlp1_apply (X : FVec Ideal S16384x256 .f32) (Wt : FVec Ideal S256x128 .f32) (b : FVec Ideal S128 .f32)
    (i : Fin 16384) (j : Fin 128) :
    Term.mlp1 (F := Ideal) X Wt b (ix2 i j)
      = Cert.CrossMlp.dense (fun k j => Wt (ix2 k j)) (fun j => b (ix1 j)) (fun k => X (ix2 i k)) j := by
  unfold Term.mlp1 Cert.CrossMlp.dense
  rw [leaky_apply, addf_apply, dotGeneral_rows_apply _ rfl rfl rfl rfl rfl rfl, bcastRow_host_apply]

/-- The third layer after the join at (i, j), j the one column, is the row-wise dense layer of row i, its bias the
    one entry of the bias vector. -/
theorem mlp2_apply (X : FVec Ideal S16384x128 .f32) (Wt : FVec Ideal S128x1 .f32) (b : FVec Ideal S1 .f32)
    (i : Fin 16384) (j : Fin 1) :
    Term.mlp2 (F := Ideal) X Wt b (ix2 i j)
      = Cert.CrossMlp.dense (fun k j => Wt (ix2 k j)) (fun _ => b (ix1 (0 : Fin 1))) (fun k => X (ix2 i k)) j := by
  unfold Term.mlp2 Cert.CrossMlp.dense
  rw [leaky_apply, addf_apply, dotGeneral_rows_apply _ rfl rfl rfl rfl rfl rfl, bcastScalar_host_apply]

/-- Entry i of the reference's chain is the network's value at row i of the three arrays. -/
theorem chain_apply (U I H : FVec Ideal S16384x128 .f32)
    (Wut : FVec Ideal S128x128 .f32) (bu : FVec Ideal S128 .f32)
    (wvv wev wve wee : FVec Ideal S128x1 .f32) (bv be : FVec Ideal S1 .f32)
    (W0t : FVec Ideal S256x256 .f32) (b0 : FVec Ideal S256 .f32)
    (W1t : FVec Ideal S256x128 .f32) (b1 : FVec Ideal S128 .f32)
    (W2t : FVec Ideal S128x1 .f32) (b2 : FVec Ideal S1 .f32) (i : Fin 16384) :
    Term.chain (F := Ideal) U I H Wut bu wvv wev wve wee bv be W0t b0 W1t b1 W2t b2 (ix1 i)
      = Cert.CrossMlp.final (fun k j => Wut (ix2 k j)) (fun j => bu (ix1 j))
          (fun k => wvv (ix2 k (0 : Fin 1))) (fun k => wev (ix2 k (0 : Fin 1)))
          (fun k => wve (ix2 k (0 : Fin 1))) (fun k => wee (ix2 k (0 : Fin 1)))
          (bv (ix1 (0 : Fin 1))) (be (ix1 (0 : Fin 1)))
          (fun k j => W0t (ix2 k j)) (fun j => b0 (ix1 j))
          (fun k j => W1t (ix2 k j)) (fun j => b1 (ix1 j))
          (fun k j => W2t (ix2 k j)) (fun _ => b2 (ix1 (0 : Fin 1)))
          (fun k => U (ix2 i k)) (fun k => I (ix2 i k)) (fun k => H (ix2 i k)) := by
  unfold Term.chain Cert.CrossMlp.final
  simp only [reshape_col_apply, mlp2_apply, mlp1_apply, mlp0_apply, concat_cols_apply, userLayer_apply, crossStep_apply]

end Cert.ReferenceIdeal.Rows

end
-- ==== Proof.Bridge.lean ====
/-
  The kernel's result vector is the reference's term of the same arguments.

  The host lines before the region gather the rows of the three tables exactly as the reference does, and hand the
  kernel each weight matrix transposed (a change of float format is the identity on the extended reals); so the arrays
  the region finds are the reference's own intermediate arrays, and the network of every row is, entry by entry, the
  reference's chain.
-/
import proofs.«111562_j21268678050244_1_alg».proof.Proof.KernelArray
import proofs.«111562_j21268678050244_1_alg».proof.Proof.Gen.ReferenceIdeal
import proofs.«111562_j21268678050244_1_alg».proof.Proof.RefTerm
import proofs.«111562_j21268678050244_1_alg».proof.Proof.RefRows

set_option maxRecDepth 16384

noncomputable section

namespace Cert.KernelIdeal.Bridge

open Cert.KernelIdeal Cert.KernelIdeal.Gen Cert.KernelIdeal.Array Idealize.ShloMosaic Idealize.ShloMosaic.TcCoe Idealize.SL.Sem
open Idealize.ShloMosaic.ValueIdx Idealize.ShloMosaic.RowOps Idealize.ShloMosaic.StableHlo

variable (m : (ℓ : Loc nD τ sig) → Buf (Elt Ideal) ℓ)

/-! ## The arrays the region finds, as terms of the arguments -/

/-- Rows of a table at the ids, a negative id counted from the table's end: the host lines before the region. -/
def rowsK (tbl : FVec Ideal S100000x128 .f32) (ids : IVec S16384 32) : FVec Ideal S16384x128 .f32 :=
  Host.gather gather_S100000x128_S16384x1_S16384x128_1_0_n_n_0_1_1128 tbl
    (broadcastInDim S16384x1 ![0] bcast_S16384_S16384x1_0
      (select (cmpi .slt ids (broadcastInDim S16384 ![] bcast_S_S16384 (constantI S_ 32 0#32)))
        (addi ids (broadcastInDim S16384 ![] bcast_S_S16384 (constantI S_ 32 100000#32))) ids))

theorem aU_eq (c : Dev nD) : aU m c = rowsK (m ((c.tc : Thread nD τ).loc main_arg3)) (m ((c.tc : Thread nD τ).loc main_arg0)) := by
  dsimp only [aU, V, V0]
  simp only [hostOps0, List.flatten_cons, List.flatten_nil, List.append_nil]
  after_results_simp
  rfl

theorem aI_eq (c : Dev nD) : aI m c = rowsK (m ((c.tc : Thread nD τ).loc main_arg4)) (m ((c.tc : Thread nD τ).loc main_arg1)) := by
  dsimp only [aI, V, V0]
  simp only [hostOps0, List.flatten_cons, List.flatten_nil, List.append_nil]
  after_results_simp
  rfl

theorem aH_eq (c : Dev nD) : aH m c = rowsK (m ((c.tc : Thread nD τ).loc main_arg5)) (m ((c.tc : Thread nD τ).loc main_arg1)) := by
  dsimp only [aH, V, V0]
  simp only [hostOps0, List.flatten_cons, List.flatten_nil, List.append_nil]
  after_results_simp
  rfl

theorem aWvv_eq (c : Dev nD) : aWvv m c = truncf .bf16 (m ((c.tc : Thread nD τ).loc main_arg6)) bitsLt_bf16_f32 := by
  show StableHlo.after hostOps0 (fun b => m (c, b)) (Proc.devRef .tc main_v21) = _
  after_results

theorem aWev_eq (c : Dev nD) : aWev m c = truncf .bf16 (m ((c.tc : Thread nD τ).loc main_arg7)) bitsLt_bf16_f32 := by
  show StableHlo.after hostOps0 (fun b => m (c, b)) (Proc.devRef .tc main_v22) = _
  after_results

theorem aWve_eq (c : Dev nD) : aWve m c = truncf .bf16 (m ((c.tc : Thread nD τ).loc main_arg8)) bitsLt_bf16_f32 := by
  show StableHlo.after hostOps0 (fun b => m (c, b)) (Proc.devRef .tc main_v23) = _
  after_results

theorem aWee_eq (c : Dev nD) : aWee m c = truncf .bf16 (m ((c.tc : Thread nD τ).loc main_arg9)) bitsLt_bf16_f32 := by
  show StableHlo.after hostOps0 (fun b => m (c, b)) (Proc.devRef .tc main_v24) = _
  after_results

theorem aWu_eq (c : Dev nD) :
    aWu m c = truncf .bf16 (transpose S128x128 [1, 0] (m ((c.tc : Thread nD τ).loc main_arg12)) transposes_S128x128_S128x128_1_0) bitsLt_bf16_f32 := by
  show StableHlo.after hostOps0 (fun b => m (c, b)) (Proc.devRef .tc main_v26) = _
  after_results

theorem aW0_eq (c : Dev nD) :
    aW0 m c = truncf .bf16 (transpose S256x256 [1, 0] (m ((c.tc : Thread nD τ).loc main_arg14)) transposes_S256x256_S256x256_1_0) bitsLt_bf16_f32 := by
  show StableHlo.after hostOps0 (fun b => m (c, b)) (Proc.devRef .tc main_v28) = _
  after_results

theorem aW1_eq (c : Dev nD) :
    aW1 m c = truncf .bf16 (transpose S256x128 [1, 0] (m ((c.tc : Thread nD τ).loc main_arg16)) transposes_S128x256_S256x128_1_0) bitsLt_bf16_f32 := by
  show StableHlo.after hostOps0 (fun b => m (c, b)) (Proc.devRef .tc main_v30) = _
  after_results

theorem aW2_eq (c : Dev nD) :
    aW2 m c = truncf .bf16 (transpose S128x1 [1, 0] (m ((c.tc : Thread nD τ).loc main_arg18)) transposes_S1x128_S128x1_1_0) bitsLt_bf16_f32 := by
  show StableHlo.after hostOps0 (fun b => m (c, b)) (Proc.devRef .tc main_v32) = _
  after_results

/-! The biases pass through untouched. -/

theorem aBv_eq (c : Dev nD) : aBv m c = (m ((c.tc : Thread nD τ).loc main_arg10)) := V_main_arg10 m c
theorem aBe_eq (c : Dev nD) : aBe m c = (m ((c.tc : Thread nD τ).loc main_arg11)) := V_main_arg11 m c
theorem aBu_eq (c : Dev nD) : aBu m c = (m ((c.tc : Thread nD τ).loc main_arg13)) := V_main_arg13 m c
theorem aB0_eq (c : Dev nD) : aB0 m c = (m ((c.tc : Thread nD τ).loc main_arg15)) := V_main_arg15 m c
theorem aB1_eq (c : Dev nD) : aB1 m c = (m ((c.tc : Thread nD τ).loc main_arg17)) := V_main_arg17 m c
theorem aB2_eq (c : Dev nD) : aB2 m c = (m ((c.tc : Thread nD τ).loc main_arg19)) := V_main_arg19 m c

/-! ## The result vector is the reference's term -/

/-- The kernel's gathered rows are the reference's: the same host operations over the same shapes. -/
theorem rowsK_eq (tbl : FVec Ideal S100000x128 .f32) (ids : IVec S16384 32) :
    rowsK tbl ids = Cert.ReferenceIdeal.Term.rows (F := Ideal) tbl ids := rfl

/-- Entry by entry, the network of every row of the arrays the region finds is the reference's chain at the same
    arguments. -/
theorem vecNet_eq (c : Dev nD) :
    vecNet m c = Cert.ReferenceIdeal.Term.out (F := Ideal)
      (m ((c.tc : Thread nD τ).loc main_arg0))
      (m ((c.tc : Thread nD τ).loc main_arg1))
      (m ((c.tc : Thread nD τ).loc main_arg3))
      (m ((c.tc : Thread nD τ).loc main_arg4))
      (m ((c.tc : Thread nD τ).loc main_arg5))
      (m ((c.tc : Thread nD τ).loc main_arg6))
      (m ((c.tc : Thread nD τ).loc main_arg7))
      (m ((c.tc : Thread nD τ).loc main_arg8))
      (m ((c.tc : Thread nD τ).loc main_arg9))
      (m ((c.tc : Thread nD τ).loc main_arg10))
      (m ((c.tc : Thread nD τ).loc main_arg11))
      (m ((c.tc : Thread nD τ).loc main_arg12))
      (m ((c.tc : Thread nD τ).loc main_arg13))
      (m ((c.tc : Thread nD τ).loc main_arg14))
      (m ((c.tc : Thread nD τ).loc main_arg15))
      (m ((c.tc : Thread nD τ).loc main_arg16))
      (m ((c.tc : Thread nD τ).loc main_arg17))
      (m ((c.tc : Thread nD τ).loc main_arg18))
      (m ((c.tc : Thread nD τ).loc main_arg19)) := by
  funext i
  obtain ⟨i0, rfl⟩ : ∃ i0 : Fin 16384, i = ix1 i0 := ⟨i 0, eq_ix1 (n := 16384) i⟩
  unfold Cert.ReferenceIdeal.Term.out
  rw [Cert.ReferenceIdeal.Rows.chain_apply]
  unfold vecNet colNet
  show rowNet m c i0 = _
  unfold rowNet
  rw [aU_eq, aI_eq, aH_eq, aWvv_eq, aWev_eq, aWve_eq, aWee_eq, aBv_eq, aBe_eq, aWu_eq, aBu_eq, aW0_eq, aB0_eq, aW1_eq, aB1_eq,
    aW2_eq, aB2_eq, rowsK_eq, rowsK_eq, rowsK_eq]
  simp only [truncf_apply]

end Cert.KernelIdeal.Bridge

end
-- ==== Proof.RefRun.lean ====
/-
  The reference program runs to its result term: its @main is a straight line of host operations (each call of the
  rectifier's function listed at its call site, over that call's own buffers), so every weakly fair execution ends with
  the result buffer at the operations' composed term of the arguments — `Term.out` — and the arguments unchanged.
-/
import proofs.«111562_j21268678050244_1_alg».proof.Proof.Gen.ReferenceIdeal
import proofs.«111562_j21268678050244_1_alg».proof.Proof.RefTerm
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the five calls unfolded. Each call of the rectifier's function is seven operations
    over that call's own buffers: the zero and its broadcast, the comparison of the argument with it, the slope and its
    broadcast, the slope times the argument, and the inner function's select, whose buffer is the call's result. -/
abbrev ops : List (HloOp τ sig (Elt F)) :=
  [ nullary main_c (constantI S_ 32 0#32),
    unary main_c main_v0 (broadcastInDim S16384 ![] bcast_S_S16384),
    binary main_arg0 main_v0 main_v1 (cmpi .slt),
    nullary main_c_0 (constantI S_ 32 100000#32),
    unary main_c_0 main_v2 (broadcastInDim S16384 ![] bcast_S_S16384),
    binary main_arg0 main_v2 main_v3 addi,
    ternary main_v1 main_v3 main_arg0 main_v4 select,
    unary main_v4 main_v5 (broadcastInDim S16384x1 ![0] bcast_S16384_S16384x1_0),
    binary main_arg3 main_v5 main_v6 (fun x i => Host.gather gather_S100000x128_S16384x1_S16384x128_1_0_n_n_0_1_1128 x i),
    nullary main_c_1 (constantI S_ 32 0#32),
    unary main_c_1 main_v7 (broadcastInDim S16384 ![] bcast_S_S16384),
    binary main_arg1 main_v7 main_v8 (cmpi .slt),
    nullary main_c_2 (constantI S_ 32 100000#32),
    unary main_c_2 main_v9 (broadcastInDim S16384 ![] bcast_S_S16384),
    binary main_arg1 main_v9 main_v10 addi,
    ternary main_v8 main_v10 main_arg1 main_v11 select,
    unary main_v11 main_v12 (broadcastInDim S16384x1 ![0] bcast_S16384_S16384x1_0),
    binary main_arg4 main_v12 main_v13 (fun x i => Host.gather gather_S100000x128_S16384x1_S16384x128_1_0_n_n_0_1_1128 x i),
    nullary main_c_3 (constantI S_ 32 0#32),
    unary main_c_3 main_v14 (broadcastInDim S16384 ![] bcast_S_S16384),
    binary main_arg1 main_v14 main_v15 (cmpi .slt),
    nullary main_c_4 (constantI S_ 32 100000#32),
    unary main_c_4 main_v16 (broadcastInDim S16384 ![] bcast_S_S16384),
    binary main_arg1 main_v16 main_v17 addi,
    ternary main_v15 main_v17 main_arg1 main_v18 select,
    unary main_v18 main_v19 (broadcastInDim S16384x1 ![0] bcast_S16384_S16384x1_0),
    binary main_arg5 main_v19 main_v20 (fun x i => Host.gather gather_S100000x128_S16384x1_S16384x128_1_0_n_n_0_1_1128 x i),
    unary main_arg12 main_v21 (transpose S128x128 [1, 0] · transposes_S128x128_S128x128_1_0),
    binary main_v6 main_v21 main_v22 (fun l r => Host.dotGeneral dot_S16384x128_S128x128_S16384x128_1_0_0_1_n_n none l r),
    unary main_arg13 main_v23 (broadcastInDim S1x128 ![1] bcast_S128_S1x128_1),
    unary main_v23 main_v24 (broadcastInDim S16384x128 ![0, 1] bcast_S1x128_S16384x128_0_1),
    binary main_v22 main_v24 main_v25 addf,
    TRef.nullary main_call0.cst (constant S_ .f32 0x00000000#32),
    TRef.unary main_call0.cst main_call0.v0 (broadcastInDim S16384x128 ![] bcast_S_S16384x128),
    TRef.binary (.of main_v25) main_call0.v0 main_call0.v1 (cmpf .oge),
    TRef.nullary main_call0.cst_0 (constant S_ .f32 0x3C23D70A#32),
    TRef.unary main_call0.cst_0 main_call0.v2 (broadcastInDim S16384x128 ![] bcast_S_S16384x128),
    TRef.binary main_call0.v2 (.of main_v25) main_call0.v3 mulf,
    TRef.ternary main_call0.v1 (.of main_v25) main_call0.v3 main_call0.call0.v0 select,
    binary main_v20 main_arg6 main_v27 (fun l r => Host.dotGeneral dot_S16384x128_S128x1_S16384x1_1_0_0_1_n_n none l r),
    unary main_v27 main_v28 (broadcastInDim S16384x128 ![0, 1] bcast_S16384x1_S16384x128_0_1),
    binary main_v13 main_v28 main_v29 mulf,
    binary main_v13 main_arg7 main_v30 (fun l r => Host.dotGeneral dot_S16384x128_S128x1_S16384x1_1_0_0_1_n_n none l r),
    unary main_v30 main_v31 (broadcastInDim S16384x128 ![0, 1] bcast_S16384x1_S16384x128_0_1),
    binary main_v20 main_v31 main_v32 mulf,
    binary main_v29 main_v32 main_v33 addf,
    unary main_arg10 main_v34 (broadcastInDim S1x1 ![1] bcast_S1_S1x1_1),
    unary main_v34 main_v35 (broadcastInDim S16384x128 ![0, 1] bcast_S1x1_S16384x128_0_1),
    binary main_v33 main_v35 main_v36 addf,
    binary main_v20 main_arg8 main_v37 (fun l r => Host.dotGeneral dot_S16384x128_S128x1_S16384x1_1_0_0_1_n_n none l r),
    unary main_v37 main_v38 (broadcastInDim S16384x128 ![0, 1] bcast_S16384x1_S16384x128_0_1),
    binary main_v13 main_v38 main_v39 mulf,
    binary main_v13 main_arg9 main_v40 (fun l r => Host.dotGeneral dot_S16384x128_S128x1_S16384x1_1_0_0_1_n_n none l r),
    unary main_v40 main_v41 (broadcastInDim S16384x128 ![0, 1] bcast_S16384x1_S16384x128_0_1),
    binary main_v20 main_v41 main_v42 mulf,
    binary main_v39 main_v42 main_v43 addf,
    unary main_arg11 main_v44 (broadcastInDim S1x1 ![1] bcast_S1_S1x1_1),
    unary main_v44 main_v45 (broadcastInDim S16384x128 ![0, 1] bcast_S1x1_S16384x128_0_1),
    binary main_v43 main_v45 main_v46 addf,
    unary main_arg12 main_v47 (transpose S128x128 [1, 0] · transposes_S128x128_S128x128_1_0),
    binary main_v26 main_v47 main_v48 (fun l r => Host.dotGeneral dot_S16384x128_S128x128_S16384x128_1_0_0_1_n_n none l r),
    unary main_arg13 main_v49 (broadcastInDim S1x128 ![1] bcast_S128_S1x128_1),
    unary main_v49 main_v50 (broadcastInDim S16384x128 ![0, 1] bcast_S1x128_S16384x128_0_1),
    binary main_v48 main_v50 main_v51 addf,
    TRef.nullary main_call1.cst (constant S_ .f32 0x00000000#32),
    TRef.unary main_call1.cst main_call1.v0 (broadcastInDim S16384x128 ![] bcast_S_S16384x128),
    TRef.binary (.of main_v51) main_call1.v0 main_call1.v1 (cmpf .oge),
    TRef.nullary main_call1.cst_0 (constant S_ .f32 0x3C23D70A#32),
    TRef.unary main_call1.cst_0 main_call1.v2 (broadcastInDim S16384x128 ![] bcast_S_S16384x128),
    TRef.binary main_call1.v2 (.of main_v51) main_call1.v3 mulf,
    TRef.ternary main_call1.v1 (.of main_v51) main_call1.v3 main_call1.call0.v0 select,
    binary main_v46 main_arg6 main_v53 (fun l r => Host.dotGeneral dot_S16384x128_S128x1_S16384x1_1_0_0_1_n_n none l r),
    unary main_v53 main_v54 (broadcastInDim S16384x128 ![0, 1] bcast_S16384x1_S16384x128_0_1),
    binary main_v36 main_v54 main_v55 mulf,
    binary main_v36 main_arg7 main_v56 (fun l r => Host.dotGeneral dot_S16384x128_S128x1_S16384x1_1_0_0_1_n_n none l r),
    unary main_v56 main_v57 (broadcastInDim S16384x128 ![0, 1] bcast_S16384x1_S16384x128_0_1),
    binary main_v46 main_v57 main_v58 mulf,
    binary main_v55 main_v58 main_v59 addf,
    unary main_arg10 main_v60 (broadcastInDim S1x1 ![1] bcast_S1_S1x1_1),
    unary main_v60 main_v61 (broadcastInDim S16384x128 ![0, 1] bcast_S1x1_S16384x128_0_1),
    binary main_v59 main_v61 main_v62 addf,
    binary main_v46 main_arg8 main_v63 (fun l r => Host.dotGeneral dot_S16384x128_S128x1_S16384x1_1_0_0_1_n_n none l r),
    unary main_v63 main_v64 (broadcastInDim S16384x128 ![0, 1] bcast_S16384x1_S16384x128_0_1),
    binary main_v36 main_v64 main_v65 mulf,
    binary main_v36 main_arg9 main_v66 (fun l r => Host.dotGeneral dot_S16384x128_S128x1_S16384x1_1_0_0_1_n_n none l r),
    unary main_v66 main_v67 (broadcastInDim S16384x128 ![0, 1] bcast_S16384x1_S16384x128_0_1),
    binary main_v46 main_v67 main_v68 mulf,
    binary main_v65 main_v68 main_v69 addf,
    unary main_arg11 main_v70 (broadcastInDim S1x1 ![1] bcast_S1_S1x1_1),
    unary main_v70 main_v71 (broadcastInDim S16384x128 ![0, 1] bcast_S1x1_S16384x128_0_1),
    binary main_v69 main_v71 main_v72 addf,
    binary main_v52 main_v62 main_v73 (fun a b => concatenate S16384x256 1 [⟨S16384x128, a⟩, ⟨S16384x128, b⟩] concatenates_S16384x128_S16384x128_S16384x256_d1),
    unary main_arg14 main_v74 (transpose S256x256 [1, 0] · transposes_S256x256_S256x256_1_0),
    binary main_v73 main_v74 main_v75 (fun l r => Host.dotGeneral dot_S16384x256_S256x256_S16384x256_1_0_0_1_n_n none l r),
    unary main_arg15 main_v76 (broadcastInDim S1x256 ![1] bcast_S256_S1x256_1),
    unary main_v76 main_v77 (broadcastInDim S16384x256 ![0, 1] bcast_S1x256_S16384x256_0_1),
    binary main_v75 main_v77 main_v78 addf,
    TRef.nullary main_call2.cst (constant S_ .f32 0x00000000#32),
    TRef.unary main_call2.cst main_call2.v0 (broadcastInDim S16384x256 ![] bcast_S_S16384x256),
    TRef.binary (.of main_v78) main_call2.v0 main_call2.v1 (cmpf .oge),
    TRef.nullary main_call2.cst_0 (constant S_ .f32 0x3C23D70A#32),
    TRef.unary main_call2.cst_0 main_call2.v2 (broadcastInDim S16384x256 ![] bcast_S_S16384x256),
    TRef.binary main_call2.v2 (.of main_v78) main_call2.v3 mulf,
    TRef.ternary main_call2.v1 (.of main_v78) main_call2.v3 main_call2.call0.v0 select,
    unary main_arg16 main_v80 (transpose S256x128 [1, 0] · transposes_S128x256_S256x128_1_0),
    binary main_v79 main_v80 main_v81 (fun l r => Host.dotGeneral dot_S16384x256_S256x128_S16384x128_1_0_0_1_n_n none l r),
    unary main_arg17 main_v82 (broadcastInDim S1x128 ![1] bcast_S128_S1x128_1),
    unary main_v82 main_v83 (broadcastInDim S16384x128 ![0, 1] bcast_S1x128_S16384x128_0_1),
    binary main_v81 main_v83 main_v84 addf,
    TRef.nullary main_call3.cst (constant S_ .f32 0x00000000#32),
    TRef.unary main_call3.cst main_call3.v0 (broadcastInDim S16384x128 ![] bcast_S_S16384x128),
    TRef.binary (.of main_v84) main_call3.v0 main_call3.v1 (cmpf .oge),
    TRef.nullary main_call3.cst_0 (constant S_ .f32 0x3C23D70A#32),
    TRef.unary main_call3.cst_0 main_call3.v2 (broadcastInDim S16384x128 ![] bcast_S_S16384x128),
    TRef.binary main_call3.v2 (.of main_v84) main_call3.v3 mulf,
    TRef.ternary main_call3.v1 (.of main_v84) main_call3.v3 main_call3.call0.v0 select,
    unary main_arg18 main_v86 (transpose S128x1 [1, 0] · transposes_S1x128_S128x1_1_0),
    binary main_v85 main_v86 main_v87 (fun l r => Host.dotGeneral dot_S16384x128_S128x1_S16384x1_1_0_0_1_n_n none l r),
    unary main_arg19 main_v88 (broadcastInDim S1x1 ![1] bcast_S1_S1x1_1),
    unary main_v88 main_v89 (broadcastInDim S16384x1 ![0, 1] bcast_S1x1_S16384x1_0_1),
    binary main_v87 main_v89 main_v90 addf,
    TRef.nullary main_call4.cst (constant S_ .f32 0x00000000#32),
    TRef.unary main_call4.cst main_call4.v0 (broadcastInDim S16384x1 ![] bcast_S_S16384x1),
    TRef.binary (.of main_v90) main_call4.v0 main_call4.v1 (cmpf .oge),
    TRef.nullary main_call4.cst_0 (constant S_ .f32 0x3C23D70A#32),
    TRef.unary main_call4.cst_0 main_call4.v2 (broadcastInDim S16384x1 ![] bcast_S_S16384x1),
    TRef.binary main_call4.v2 (.of main_v90) main_call4.v3 mulf,
    TRef.ternary main_call4.v1 (.of main_v90) main_call4.v3 main_call4.call0.v0 select,
    reshape main_v91 main_v92 rfl shapeCasts_S16384x1_S16384 ]

set_option maxRecDepth 4096 in
/-- @main is that straight line: its two windows and the functions' definitions unfolded at their calls, both sides
    are one chain of single steps once sequencing is reassociated. -/
theorem main_eq (c : Dev nD) : main (F := F) c = seq ops := by
  simp only [main, main_part0, main_part1, fn_leaky_relu.body, fn_leaky_relu_0.body, fn_leaky_relu_2.body, fn_where.body,
    fn_where_1.body, fn_where_3.body, seq, bind_assoc, pure_bind]
  rfl

/-- The signature scopes no TensorCore buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., binary_bufs_sub .., unary_bufs_sub .., binary_bufs_sub ..,
    binary_bufs_sub .., unary_bufs_sub .., binary_bufs_sub .., binary_bufs_sub .., unary_bufs_sub .., unary_bufs_sub ..,
    binary_bufs_sub .., binary_bufs_sub .., unary_bufs_sub .., binary_bufs_sub .., binary_bufs_sub .., unary_bufs_sub ..,
    binary_bufs_sub .., binary_bufs_sub .., unary_bufs_sub .., unary_bufs_sub .., binary_bufs_sub .., unary_bufs_sub ..,
    binary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., binary_bufs_sub ..,
    unary_bufs_sub .., binary_bufs_sub .., binary_bufs_sub .., unary_bufs_sub .., binary_bufs_sub .., binary_bufs_sub ..,
    unary_bufs_sub .., unary_bufs_sub .., binary_bufs_sub .., binary_bufs_sub .., unary_bufs_sub .., binary_bufs_sub ..,
    binary_bufs_sub .., unary_bufs_sub .., binary_bufs_sub .., binary_bufs_sub .., unary_bufs_sub .., unary_bufs_sub ..,
    binary_bufs_sub .., binary_bufs_sub .., unary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub .., reshape_bufs_sub ..⟩

/-- On every device, at any float instance, from any memory with zero counters: every weakly fair execution of @main
    terminates, and every final state has each TensorCore buffer at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The six stretches

The line is cut at its stage boundaries. For each stretch, from ANY contents `W`: the buffers it produces, as the
stage's term of `W` at the buffers it reads; and every buffer it does not write, unchanged. -/

/-- The fold over a concatenation is the fold over the second list from the fold over the first. -/
private theorem after_append {Val : EltTy → Type} : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_append l₁ l₂]

/-- The three tables read at the wrapped ids: up to the head entity's rows. -/
def s1 : List (HloOp τ sig (Elt F)) :=
  [ nullary main_c (constantI S_ 32 0#32),
    unary main_c main_v0 (broadcastInDim S16384 ![] bcast_S_S16384),
    binary main_arg0 main_v0 main_v1 (cmpi .slt),
    nullary main_c_0 (constantI S_ 32 100000#32),
    unary main_c_0 main_v2 (broadcastInDim S16384 ![] bcast_S_S16384),
    binary main_arg0 main_v2 main_v3 addi,
    ternary main_v1 main_v3 main_arg0 main_v4 select,
    unary main_v4 main_v5 (broadcastInDim S16384x1 ![0] bcast_S16384_S16384x1_0),
    binary main_arg3 main_v5 main_v6 (fun x i => Host.gather gather_S100000x128_S16384x1_S16384x128_1_0_n_n_0_1_1128 x i),
    nullary main_c_1 (constantI S_ 32 0#32),
    unary main_c_1 main_v7 (broadcastInDim S16384 ![] bcast_S_S16384),
    binary main_arg1 main_v7 main_v8 (cmpi .slt),
    nullary main_c_2 (constantI S_ 32 100000#32),
    unary main_c_2 main_v9 (broadcastInDim S16384 ![] bcast_S_S16384),
    binary main_arg1 main_v9 main_v10 addi,
    ternary main_v8 main_v10 main_arg1 main_v11 select,
    unary main_v11 main_v12 (broadcastInDim S16384x1 ![0] bcast_S16384_S16384x1_0),
    binary main_arg4 main_v12 main_v13 (fun x i => Host.gather gather_S100000x128_S16384x1_S16384x128_1_0_n_n_0_1_1128 x i),
    nullary main_c_3 (constantI S_ 32 0#32),
    unary main_c_3 main_v14 (broadcastInDim S16384 ![] bcast_S_S16384),
    binary main_arg1 main_v14 main_v15 (cmpi .slt),
    nullary main_c_4 (constantI S_ 32 100000#32),
    unary main_c_4 main_v16 (broadcastInDim S16384 ![] bcast_S_S16384),
    binary main_arg1 main_v16 main_v17 addi,
    ternary main_v15 main_v17 main_arg1 main_v18 select,
    unary main_v18 main_v19 (broadcastInDim S16384x1 ![0] bcast_S16384_S16384x1_0),
    binary main_arg5 main_v19 main_v20 (fun x i => Host.gather gather_S100000x128_S16384x1_S16384x128_1_0_n_n_0_1_1128 x i) ]

/-- The buffers `s1` writes, in order. -/
def written1 : List (Ref sig .tc) :=
  [main_c, main_v0, main_v1, main_c_0, main_v2, main_v3, main_v4, main_v5, main_v6, main_c_1, main_v7, main_v8, main_c_2, main_v9, main_v10, main_v11, main_v12, main_v13, main_c_3, main_v14, main_v15, main_c_4, main_v16, main_v17, main_v18, main_v19, main_v20]

/-- The users' first dense layer, its rectifier's call unfolded. -/
def s2 : List (HloOp τ sig (Elt F)) :=
  [ unary main_arg12 main_v21 (transpose S128x128 [1, 0] · transposes_S128x128_S128x128_1_0),
    binary main_v6 main_v21 main_v22 (fun l r => Host.dotGeneral dot_S16384x128_S128x128_S16384x128_1_0_0_1_n_n none l r),
    unary main_arg13 main_v23 (broadcastInDim S1x128 ![1] bcast_S128_S1x128_1),
    unary main_v23 main_v24 (broadcastInDim S16384x128 ![0, 1] bcast_S1x128_S16384x128_0_1),
    binary main_v22 main_v24 main_v25 addf,
    TRef.nullary main_call0.cst (constant S_ .f32 0x00000000#32),
    TRef.unary main_call0.cst main_call0.v0 (broadcastInDim S16384x128 ![] bcast_S_S16384x128),
    TRef.binary (.of main_v25) main_call0.v0 main_call0.v1 (cmpf .oge),
    TRef.nullary main_call0.cst_0 (constant S_ .f32 0x3C23D70A#32),
    TRef.unary main_call0.cst_0 main_call0.v2 (broadcastInDim S16384x128 ![] bcast_S_S16384x128),
    TRef.binary main_call0.v2 (.of main_v25) main_call0.v3 mulf,
    TRef.ternary main_call0.v1 (.of main_v25) main_call0.v3 main_call0.call0.v0 select ]

/-- The buffers `s2` writes, in order. -/
def written2 : List (Ref sig .tc) :=
  [main_v21, main_v22, main_v23, main_v24, main_v25, main_call0_cst, main_call0_v0, main_call0_v1, main_call0_cst_0, main_call0_v2, main_call0_v3, main_v26]

/-- The first two cross-compress steps. -/
def s3 : List (HloOp τ sig (Elt F)) :=
  [ binary main_v20 main_arg6 main_v27 (fun l r => Host.dotGeneral dot_S16384x128_S128x1_S16384x1_1_0_0_1_n_n none l r),
    unary main_v27 main_v28 (broadcastInDim S16384x128 ![0, 1] bcast_S16384x1_S16384x128_0_1),
    binary main_v13 main_v28 main_v29 mulf,
    binary main_v13 main_arg7 main_v30 (fun l r => Host.dotGeneral dot_S16384x128_S128x1_S16384x1_1_0_0_1_n_n none l r),
    unary main_v30 main_v31 (broadcastInDim S16384x128 ![0, 1] bcast_S16384x1_S16384x128_0_1),
    binary main_v20 main_v31 main_v32 mulf,
    binary main_v29 main_v32 main_v33 addf,
    unary main_arg10 main_v34 (broadcastInDim S1x1 ![1] bcast_S1_S1x1_1),
    unary main_v34 main_v35 (broadcastInDim S16384x128 ![0, 1] bcast_S1x1_S16384x128_0_1),
    binary main_v33 main_v35 main_v36 addf,
    binary main_v20 main_arg8 main_v37 (fun l r => Host.dotGeneral dot_S16384x128_S128x1_S16384x1_1_0_0_1_n_n none l r),
    unary main_v37 main_v38 (broadcastInDim S16384x128 ![0, 1] bcast_S16384x1_S16384x128_0_1),
    binary main_v13 main_v38 main_v39 mulf,
    binary main_v13 main_arg9 main_v40 (fun l r => Host.dotGeneral dot_S16384x128_S128x1_S16384x1_1_0_0_1_n_n none l r),
    unary main_v40 main_v41 (broadcastInDim S16384x128 ![0, 1] bcast_S16384x1_S16384x128_0_1),
    binary main_v20 main_v41 main_v42 mulf,
    binary main_v39 main_v42 main_v43 addf,
    unary main_arg11 main_v44 (broadcastInDim S1x1 ![1] bcast_S1_S1x1_1),
    unary main_v44 main_v45 (broadcastInDim S16384x128 ![0, 1] bcast_S1x1_S16384x128_0_1),
    binary main_v43 main_v45 main_v46 addf ]

/-- The buffers `s3` writes, in order. -/
def written3 : List (Ref sig .tc) :=
  [main_v27, main_v28, main_v29, main_v30, main_v31, main_v32, main_v33, main_v34, main_v35, main_v36, main_v37, main_v38, main_v39, main_v40, main_v41, main_v42, main_v43, main_v44, main_v45, main_v46]

/-- The users' second dense layer, its rectifier's call unfolded. -/
def s4 : List (HloOp τ sig (Elt F)) :=
  [ unary main_arg12 main_v47 (transpose S128x128 [1, 0] · transposes_S128x128_S128x128_1_0),
    binary main_v26 main_v47 main_v48 (fun l r => Host.dotGeneral dot_S16384x128_S128x128_S16384x128_1_0_0_1_n_n none l r),
    unary main_arg13 main_v49 (broadcastInDim S1x128 ![1] bcast_S128_S1x128_1),
    unary main_v49 main_v50 (broadcastInDim S16384x128 ![0, 1] bcast_S1x128_S16384x128_0_1),
    binary main_v48 main_v50 main_v51 addf,
    TRef.nullary main_call1.cst (constant S_ .f32 0x00000000#32),
    TRef.unary main_call1.cst main_call1.v0 (broadcastInDim S16384x128 ![] bcast_S_S16384x128),
    TRef.binary (.of main_v51) main_call1.v0 main_call1.v1 (cmpf .oge),
    TRef.nullary main_call1.cst_0 (constant S_ .f32 0x3C23D70A#32),
    TRef.unary main_call1.cst_0 main_call1.v2 (broadcastInDim S16384x128 ![] bcast_S_S16384x128),
    TRef.binary main_call1.v2 (.of main_v51) main_call1.v3 mulf,
    TRef.ternary main_call1.v1 (.of main_v51) main_call1.v3 main_call1.call0.v0 select ]

/-- The buffers `s4` writes, in order. -/
def written4 : List (Ref sig .tc) :=
  [main_v47, main_v48, main_v49, main_v50, main_v51, main_call1_cst, main_call1_v0, main_call1_v1, main_call1_cst_0, main_call1_v2, main_call1_v3, main_v52]

/-- The second two cross-compress steps. -/
def s5 : List (HloOp τ sig (Elt F)) :=
  [ binary main_v46 main_arg6 main_v53 (fun l r => Host.dotGeneral dot_S16384x128_S128x1_S16384x1_1_0_0_1_n_n none l r),
    unary main_v53 main_v54 (broadcastInDim S16384x128 ![0, 1] bcast_S16384x1_S16384x128_0_1),
    binary main_v36 main_v54 main_v55 mulf,
    binary main_v36 main_arg7 main_v56 (fun l r => Host.dotGeneral dot_S16384x128_S128x1_S16384x1_1_0_0_1_n_n none l r),
    unary main_v56 main_v57 (broadcastInDim S16384x128 ![0, 1] bcast_S16384x1_S16384x128_0_1),
    binary main_v46 main_v57 main_v58 mulf,
    binary main_v55 main_v58 main_v59 addf,
    unary main_arg10 main_v60 (broadcastInDim S1x1 ![1] bcast_S1_S1x1_1),
    unary main_v60 main_v61 (broadcastInDim S16384x128 ![0, 1] bcast_S1x1_S16384x128_0_1),
    binary main_v59 main_v61 main_v62 addf,
    binary main_v46 main_arg8 main_v63 (fun l r => Host.dotGeneral dot_S16384x128_S128x1_S16384x1_1_0_0_1_n_n none l r),
    unary main_v63 main_v64 (broadcastInDim S16384x128 ![0, 1] bcast_S16384x1_S16384x128_0_1),
    binary main_v36 main_v64 main_v65 mulf,
    binary main_v36 main_arg9 main_v66 (fun l r => Host.dotGeneral dot_S16384x128_S128x1_S16384x1_1_0_0_1_n_n none l r),
    unary main_v66 main_v67 (broadcastInDim S16384x128 ![0, 1] bcast_S16384x1_S16384x128_0_1),
    binary main_v46 main_v67 main_v68 mulf,
    binary main_v65 main_v68 main_v69 addf,
    unary main_arg11 main_v70 (broadcastInDim S1x1 ![1] bcast_S1_S1x1_1),
    unary main_v70 main_v71 (broadcastInDim S16384x128 ![0, 1] bcast_S1x1_S16384x128_0_1),
    binary main_v69 main_v71 main_v72 addf ]

/-- The buffers `s5` writes, in order. -/
def written5 : List (Ref sig .tc) :=
  [main_v53, main_v54, main_v55, main_v56, main_v57, main_v58, main_v59, main_v60, main_v61, main_v62, main_v63, main_v64, main_v65, main_v66, main_v67, main_v68, main_v69, main_v70, main_v71, main_v72]

/-- The join, the three dense layers after it (each rectifier's call unfolded) and the reshape. -/
def s6 : List (HloOp τ sig (Elt F)) :=
  [ binary main_v52 main_v62 main_v73 (fun a b => concatenate S16384x256 1 [⟨S16384x128, a⟩, ⟨S16384x128, b⟩] concatenates_S16384x128_S16384x128_S16384x256_d1),
    unary main_arg14 main_v74 (transpose S256x256 [1, 0] · transposes_S256x256_S256x256_1_0),
    binary main_v73 main_v74 main_v75 (fun l r => Host.dotGeneral dot_S16384x256_S256x256_S16384x256_1_0_0_1_n_n none l r),
    unary main_arg15 main_v76 (broadcastInDim S1x256 ![1] bcast_S256_S1x256_1),
    unary main_v76 main_v77 (broadcastInDim S16384x256 ![0, 1] bcast_S1x256_S16384x256_0_1),
    binary main_v75 main_v77 main_v78 addf,
    TRef.nullary main_call2.cst (constant S_ .f32 0x00000000#32),
    TRef.unary main_call2.cst main_call2.v0 (broadcastInDim S16384x256 ![] bcast_S_S16384x256),
    TRef.binary (.of main_v78) main_call2.v0 main_call2.v1 (cmpf .oge),
    TRef.nullary main_call2.cst_0 (constant S_ .f32 0x3C23D70A#32),
    TRef.unary main_call2.cst_0 main_call2.v2 (broadcastInDim S16384x256 ![] bcast_S_S16384x256),
    TRef.binary main_call2.v2 (.of main_v78) main_call2.v3 mulf,
    TRef.ternary main_call2.v1 (.of main_v78) main_call2.v3 main_call2.call0.v0 select,
    unary main_arg16 main_v80 (transpose S256x128 [1, 0] · transposes_S128x256_S256x128_1_0),
    binary main_v79 main_v80 main_v81 (fun l r => Host.dotGeneral dot_S16384x256_S256x128_S16384x128_1_0_0_1_n_n none l r),
    unary main_arg17 main_v82 (broadcastInDim S1x128 ![1] bcast_S128_S1x128_1),
    unary main_v82 main_v83 (broadcastInDim S16384x128 ![0, 1] bcast_S1x128_S16384x128_0_1),
    binary main_v81 main_v83 main_v84 addf,
    TRef.nullary main_call3.cst (constant S_ .f32 0x00000000#32),
    TRef.unary main_call3.cst main_call3.v0 (broadcastInDim S16384x128 ![] bcast_S_S16384x128),
    TRef.binary (.of main_v84) main_call3.v0 main_call3.v1 (cmpf .oge),
    TRef.nullary main_call3.cst_0 (constant S_ .f32 0x3C23D70A#32),
    TRef.unary main_call3.cst_0 main_call3.v2 (broadcastInDim S16384x128 ![] bcast_S_S16384x128),
    TRef.binary main_call3.v2 (.of main_v84) main_call3.v3 mulf,
    TRef.ternary main_call3.v1 (.of main_v84) main_call3.v3 main_call3.call0.v0 select,
    unary main_arg18 main_v86 (transpose S128x1 [1, 0] · transposes_S1x128_S128x1_1_0),
    binary main_v85 main_v86 main_v87 (fun l r => Host.dotGeneral dot_S16384x128_S128x1_S16384x1_1_0_0_1_n_n none l r),
    unary main_arg19 main_v88 (broadcastInDim S1x1 ![1] bcast_S1_S1x1_1),
    unary main_v88 main_v89 (broadcastInDim S16384x1 ![0, 1] bcast_S1x1_S16384x1_0_1),
    binary main_v87 main_v89 main_v90 addf,
    TRef.nullary main_call4.cst (constant S_ .f32 0x00000000#32),
    TRef.unary main_call4.cst main_call4.v0 (broadcastInDim S16384x1 ![] bcast_S_S16384x1),
    TRef.binary (.of main_v90) main_call4.v0 main_call4.v1 (cmpf .oge),
    TRef.nullary main_call4.cst_0 (constant S_ .f32 0x3C23D70A#32),
    TRef.unary main_call4.cst_0 main_call4.v2 (broadcastInDim S16384x1 ![] bcast_S_S16384x1),
    TRef.binary main_call4.v2 (.of main_v90) main_call4.v3 mulf,
    TRef.ternary main_call4.v1 (.of main_v90) main_call4.v3 main_call4.call0.v0 select,
    reshape main_v91 main_v92 rfl shapeCasts_S16384x1_S16384 ]

/-- The buffers `s6` writes, in order. -/
def written6 : List (Ref sig .tc) :=
  [main_v73, main_v74, main_v75, main_v76, main_v77, main_v78, main_call2_cst, main_call2_v0, main_call2_v1, main_call2_cst_0, main_call2_v2, main_call2_v3, main_v79, main_v80, main_v81, main_v82, main_v83, main_v84, main_call3_cst, main_call3_v0, main_call3_v1, main_call3_cst_0, main_call3_v2, main_call3_v3, main_v85, main_v86, main_v87, main_v88, main_v89, main_v90, main_call4_cst, main_call4_v0, main_call4_v1, main_call4_cst_0, main_call4_v2, main_call4_v3, main_v91, main_v92]

/-- The operations are the six stretches one after the other. -/
theorem ops_eq : (ops : List (HloOp τ sig (Elt F))) = s1 ++ (s2 ++ (s3 ++ (s4 ++ (s5 ++ s6)))) := rfl

/-- Every operation of `s1` writes only buffers listed in `written1`. -/
theorem s1_writes : (s1 (F := F)).Forall fun op => op.writes ⊆ (written1.map (Proc.devRef (τ := τ) .tc)).toFinset := by
  simp only [s1, List.Forall, nullary_writes, unary_writes, binary_writes, ternary_writes, reshape_writes,
    Finset.singleton_subset_iff]
  repeat' apply And.intro
  all_goals exact List.mem_toFinset.mpr (List.mem_map_of_mem (by decide))

/-- A buffer `s1` does not write keeps its contents. -/
theorem keep1 (W : Valuation τ sig (Elt F)) {r : Ref sig .tc} (h : r ∉ written1) :
    after s1 W (Proc.devRef .tc r) = W (Proc.devRef .tc r) :=
  after_of_writes_sub s1 W s1_writes h

/-- Every operation of `s2` writes only buffers listed in `written2`. -/
theorem s2_writes : (s2 (F := F)).Forall fun op => op.writes ⊆ (written2.map (Proc.devRef (τ := τ) .tc)).toFinset := by
  simp only [s2, List.Forall, nullary_writes, unary_writes, binary_writes, ternary_writes, reshape_writes,
    Finset.singleton_subset_iff]
  repeat' apply And.intro
  all_goals exact List.mem_toFinset.mpr (List.mem_map_of_mem (by decide))

/-- A buffer `s2` does not write keeps its contents. -/
theorem keep2 (W : Valuation τ sig (Elt F)) {r : Ref sig .tc} (h : r ∉ written2) :
    after s2 W (Proc.devRef .tc r) = W (Proc.devRef .tc r) :=
  after_of_writes_sub s2 W s2_writes h

/-- Every operation of `s3` writes only buffers listed in `written3`. -/
theorem s3_writes : (s3 (F := F)).Forall fun op => op.writes ⊆ (written3.map (Proc.devRef (τ := τ) .tc)).toFinset := by
  simp only [s3, List.Forall, nullary_writes, unary_writes, binary_writes, ternary_writes, reshape_writes,
    Finset.singleton_subset_iff]
  repeat' apply And.intro
  all_goals exact List.mem_toFinset.mpr (List.mem_map_of_mem (by decide))

/-- A buffer `s3` does not write keeps its contents. -/
theorem keep3 (W : Valuation τ sig (Elt F)) {r : Ref sig .tc} (h : r ∉ written3) :
    after s3 W (Proc.devRef .tc r) = W (Proc.devRef .tc r) :=
  after_of_writes_sub s3 W s3_writes h

/-- Every operation of `s4` writes only buffers listed in `written4`. -/
theorem s4_writes : (s4 (F := F)).Forall fun op => op.writes ⊆ (written4.map (Proc.devRef (τ := τ) .tc)).toFinset := by
  simp only [s4, List.Forall, nullary_writes, unary_writes, binary_writes, ternary_writes, reshape_writes,
    Finset.singleton_subset_iff]
  repeat' apply And.intro
  all_goals exact List.mem_toFinset.mpr (List.mem_map_of_mem (by decide))

/-- A buffer `s4` does not write keeps its contents. -/
theorem keep4 (W : Valuation τ sig (Elt F)) {r : Ref sig .tc} (h : r ∉ written4) :
    after s4 W (Proc.devRef .tc r) = W (Proc.devRef .tc r) :=
  after_of_writes_sub s4 W s4_writes h

/-- Every operation of `s5` writes only buffers listed in `written5`. -/
theorem s5_writes : (s5 (F := F)).Forall fun op => op.writes ⊆ (written5.map (Proc.devRef (τ := τ) .tc)).toFinset := by
  simp only [s5, List.Forall, nullary_writes, unary_writes, binary_writes, ternary_writes, reshape_writes,
    Finset.singleton_subset_iff]
  repeat' apply And.intro
  all_goals exact List.mem_toFinset.mpr (List.mem_map_of_mem (by decide))

/-- A buffer `s5` does not write keeps its contents. -/
theorem keep5 (W : Valuation τ sig (Elt F)) {r : Ref sig .tc} (h : r ∉ written5) :
    after s5 W (Proc.devRef .tc r) = W (Proc.devRef .tc r) :=
  after_of_writes_sub s5 W s5_writes h

/-- Every operation of `s6` writes only buffers listed in `written6`. -/
theorem s6_writes : (s6 (F := F)).Forall fun op => op.writes ⊆ (written6.map (Proc.devRef (τ := τ) .tc)).toFinset := by
  simp only [s6, List.Forall, nullary_writes, unary_writes, binary_writes, ternary_writes, reshape_writes,
    Finset.singleton_subset_iff]
  repeat' apply And.intro
  all_goals exact List.mem_toFinset.mpr (List.mem_map_of_mem (by decide))

/-- A buffer `s6` does not write keeps its contents. -/
theorem keep6 (W : Valuation τ sig (Elt F)) {r : Ref sig .tc} (h : r ∉ written6) :
    after s6 W (Proc.devRef .tc r) = W (Proc.devRef .tc r) :=
  after_of_writes_sub s6 W s6_writes h

/-- `keep1`, its buffer matched up to unfolding. -/
theorem keep1' (W : Valuation τ sig (Elt F)) {r : Ref sig .tc} (h : r ∉ written1) :
    after s1 W (no_index (Proc.devRef .tc r)) = W (Proc.devRef .tc r) := keep1 W h

/-- `keep2`, its buffer matched up to unfolding. -/
theorem keep2' (W : Valuation τ sig (Elt F)) {r : Ref sig .tc} (h : r ∉ written2) :
    after s2 W (no_index (Proc.devRef .tc r)) = W (Proc.devRef .tc r) := keep2 W h

/-- `keep3`, its buffer matched up to unfolding. -/
theorem keep3' (W : Valuation τ sig (Elt F)) {r : Ref sig .tc} (h : r ∉ written3) :
    after s3 W (no_index (Proc.devRef .tc r)) = W (Proc.devRef .tc r) := keep3 W h

/-- `keep4`, its buffer matched up to unfolding. -/
theorem keep4' (W : Valuation τ sig (Elt F)) {r : Ref sig .tc} (h : r ∉ written4) :
    after s4 W (no_index (Proc.devRef .tc r)) = W (Proc.devRef .tc r) := keep4 W h

/-- `keep5`, its buffer matched up to unfolding. -/
theorem keep5' (W : Valuation τ sig (Elt F)) {r : Ref sig .tc} (h : r ∉ written5) :
    after s5 W (no_index (Proc.devRef .tc r)) = W (Proc.devRef .tc r) := keep5 W h

attribute [local irreducible] Host.gather transpose concatenate in
/-- The users' rows. -/
theorem s1_v6 (W : Valuation τ sig (Elt F)) :
    after s1 W (main_v6 : DevRef τ sig)
      = Term.rows (W (main_arg3 : DevRef τ sig)) (W (main_arg0 : DevRef τ sig)) := by
  unfold s1
  after_results_simp
  rfl

attribute [local irreducible] Host.gather transpose concatenate in
/-- The items' rows. -/
theorem s1_v13 (W : Valuation τ sig (Elt F)) :
    after s1 W (main_v13 : DevRef τ sig)
      = Term.rows (W (main_arg4 : DevRef τ sig)) (W (main_arg1 : DevRef τ sig)) := by
  unfold s1
  after_results_simp
  rfl

attribute [local irreducible] Host.gather transpose concatenate in
/-- The head entities' rows. -/
theorem s1_v20 (W : Valuation τ sig (Elt F)) :
    after s1 W (main_v20 : DevRef τ sig)
      = Term.rows (W (main_arg5 : DevRef τ sig)) (W (main_arg1 : DevRef τ sig)) := by
  unfold s1
  after_results_simp
  rfl

attribute [local irreducible] Host.gather transpose concatenate in
/-- The users' first layer. -/
theorem s2_v26 (W : Valuation τ sig (Elt F)) :
    after s2 W (main_v26 : DevRef τ sig)
      = Term.userLayer (W (main_v6 : DevRef τ sig)) (transpose S128x128 [1, 0] (W (main_arg12 : DevRef τ sig)) transposes_S128x128_S128x128_1_0) (W (main_arg13 : DevRef τ sig)) := by
  unfold s2
  after_results_simp
  rfl

attribute [local irreducible] Host.gather transpose concatenate in
/-- The first cross-compress step of the items' side. -/
theorem s3_v36 (W : Valuation τ sig (Elt F)) :
    after s3 W (main_v36 : DevRef τ sig)
      = Term.crossStep (W (main_v13 : DevRef τ sig)) (W (main_v20 : DevRef τ sig)) (W (main_arg6 : DevRef τ sig)) (W (main_arg7 : DevRef τ sig)) (W (main_arg10 : DevRef τ sig)) := by
  unfold s3
  after_results_simp
  rfl

attribute [local irreducible] Host.gather transpose concatenate in
/-- The first cross-compress step of the entities' side. -/
theorem s3_v46 (W : Valuation τ sig (Elt F)) :
    after s3 W (main_v46 : DevRef τ sig)
      = Term.crossStep (W (main_v13 : DevRef τ sig)) (W (main_v20 : DevRef τ sig)) (W (main_arg8 : DevRef τ sig)) (W (main_arg9 : DevRef τ sig)) (W (main_arg11 : DevRef τ sig)) := by
  unfold s3
  after_results_simp
  rfl

attribute [local irreducible] Host.gather transpose concatenate in
/-- The users' second layer. -/
theorem s4_v52 (W : Valuation τ sig (Elt F)) :
    after s4 W (main_v52 : DevRef τ sig)
      = Term.userLayer (W (main_v26 : DevRef τ sig)) (transpose S128x128 [1, 0] (W (main_arg12 : DevRef τ sig)) transposes_S128x128_S128x128_1_0) (W (main_arg13 : DevRef τ sig)) := by
  unfold s4
  after_results_simp
  rfl

attribute [local irreducible] Host.gather transpose concatenate in
/-- The second cross-compress step of the items' side. -/
theorem s5_v62 (W : Valuation τ sig (Elt F)) :
    after s5 W (main_v62 : DevRef τ sig)
      = Term.crossStep (W (main_v36 : DevRef τ sig)) (W (main_v46 : DevRef τ sig)) (W (main_arg6 : DevRef τ sig)) (W (main_arg7 : DevRef τ sig)) (W (main_arg10 : DevRef τ sig)) := by
  unfold s5
  after_results_simp
  rfl

attribute [local irreducible] Host.gather transpose concatenate in
/-- The join, the three layers after it and the reshape. -/
theorem s6_v92 (W : Valuation τ sig (Elt F)) :
    after s6 W (main_v92 : DevRef τ sig)
      = shapeCast S16384
          (Term.mlp2
            (Term.mlp1
              (Term.mlp0
                (concatenate S16384x256 1 [⟨S16384x128, (W (main_v52 : DevRef τ sig))⟩, ⟨S16384x128, (W (main_v62 : DevRef τ sig))⟩]
                  concatenates_S16384x128_S16384x128_S16384x256_d1)
                (transpose S256x256 [1, 0] (W (main_arg14 : DevRef τ sig)) transposes_S256x256_S256x256_1_0) (W (main_arg15 : DevRef τ sig)))
              (transpose S256x128 [1, 0] (W (main_arg16 : DevRef τ sig)) transposes_S128x256_S256x128_1_0) (W (main_arg17 : DevRef τ sig)))
            (transpose S128x1 [1, 0] (W (main_arg18 : DevRef τ sig)) transposes_S1x128_S128x1_1_0) (W (main_arg19 : DevRef τ sig)))
          shapeCasts_S16384x1_S16384 := by
  unfold s6
  after_results_simp
  rfl

/-- `s1_v6`, its buffer matched up to unfolding. -/
theorem s1_v6' (W : Valuation τ sig (Elt F)) :
    after s1 W (no_index (main_v6 : DevRef τ sig))
      = Term.rows (W (main_arg3 : DevRef τ sig)) (W (main_arg0 : DevRef τ sig)) := s1_v6 W

/-- `s1_v13`, its buffer matched up to unfolding. -/
theorem s1_v13' (W : Valuation τ sig (Elt F)) :
    after s1 W (no_index (main_v13 : DevRef τ sig))
      = Term.rows (W (main_arg4 : DevRef τ sig)) (W (main_arg1 : DevRef τ sig)) := s1_v13 W

/-- `s1_v20`, its buffer matched up to unfolding. -/
theorem s1_v20' (W : Valuation τ sig (Elt F)) :
    after s1 W (no_index (main_v20 : DevRef τ sig))
      = Term.rows (W (main_arg5 : DevRef τ sig)) (W (main_arg1 : DevRef τ sig)) := s1_v20 W

/-- `s2_v26`, its buffer matched up to unfolding. -/
theorem s2_v26' (W : Valuation τ sig (Elt F)) :
    after s2 W (no_index (main_v26 : DevRef τ sig))
      = Term.userLayer (W (main_v6 : DevRef τ sig)) (transpose S128x128 [1, 0] (W (main_arg12 : DevRef τ sig)) transposes_S128x128_S128x128_1_0) (W (main_arg13 : DevRef τ sig)) := s2_v26 W

/-- `s3_v36`, its buffer matched up to unfolding. -/
theorem s3_v36' (W : Valuation τ sig (Elt F)) :
    after s3 W (no_index (main_v36 : DevRef τ sig))
      = Term.crossStep (W (main_v13 : DevRef τ sig)) (W (main_v20 : DevRef τ sig)) (W (main_arg6 : DevRef τ sig)) (W (main_arg7 : DevRef τ sig)) (W (main_arg10 : DevRef τ sig)) := s3_v36 W

/-- `s3_v46`, its buffer matched up to unfolding. -/
theorem s3_v46' (W : Valuation τ sig (Elt F)) :
    after s3 W (no_index (main_v46 : DevRef τ sig))
      = Term.crossStep (W (main_v13 : DevRef τ sig)) (W (main_v20 : DevRef τ sig)) (W (main_arg8 : DevRef τ sig)) (W (main_arg9 : DevRef τ sig)) (W (main_arg11 : DevRef τ sig)) := s3_v46 W

/-- `s4_v52`, its buffer matched up to unfolding. -/
theorem s4_v52' (W : Valuation τ sig (Elt F)) :
    after s4 W (no_index (main_v52 : DevRef τ sig))
      = Term.userLayer (W (main_v26 : DevRef τ sig)) (transpose S128x128 [1, 0] (W (main_arg12 : DevRef τ sig)) transposes_S128x128_S128x128_1_0) (W (main_arg13 : DevRef τ sig)) := s4_v52 W

/-- `s5_v62`, its buffer matched up to unfolding. -/
theorem s5_v62' (W : Valuation τ sig (Elt F)) :
    after s5 W (no_index (main_v62 : DevRef τ sig))
      = Term.crossStep (W (main_v36 : DevRef τ sig)) (W (main_v46 : DevRef τ sig)) (W (main_arg6 : DevRef τ sig)) (W (main_arg7 : DevRef τ sig)) (W (main_arg10 : DevRef τ sig)) := s5_v62 W

/-! ## The whole line -/

/-- No operation writes an argument: a buffer none of the six stretches writes holds at the end what it held at launch. -/
theorem arg_kept (V : Valuation τ sig (Elt F)) {r : Ref sig .tc}
    (h : r ∉ written1 ++ (written2 ++ (written3 ++ (written4 ++ (written5 ++ written6))))) :
    after ops V (Proc.devRef .tc r) = V (Proc.devRef .tc r) := by
  simp only [List.mem_append, not_or] at h
  obtain ⟨h1, h2, h3, h4, h5, h6⟩ := h
  rw [ops_eq, after_append, after_append, after_append, after_append, after_append,
    keep6 _ h6, keep5 _ h5, keep4 _ h4, keep3 _ h3, keep2 _ h2, keep1 _ h1]

/-- The fold at the result buffer is `Term.out` of the arguments' contents: the last stretch's result over the
    buffers it reads, each of those the result of the stretch that writes it or kept by the stretches between, back to the
    arguments. The two joined arrays are read back first, on their own: they sit inside the join's operand list, a list
    of arrays each paired with its shape, under which only a rewrite of the whole entry goes. -/
theorem out_eq (V : Valuation τ sig (Elt F)) :
    after ops V (main_v92 : DevRef τ sig)
      = Term.out (V (main_arg0 : DevRef τ sig)) (V (main_arg1 : DevRef τ sig)) (V (main_arg3 : DevRef τ sig)) (V (main_arg4 : DevRef τ sig))
          (V (main_arg5 : DevRef τ sig)) (V (main_arg6 : DevRef τ sig)) (V (main_arg7 : DevRef τ sig)) (V (main_arg8 : DevRef τ sig))
          (V (main_arg9 : DevRef τ sig)) (V (main_arg10 : DevRef τ sig)) (V (main_arg11 : DevRef τ sig)) (V (main_arg12 : DevRef τ sig))
          (V (main_arg13 : DevRef τ sig)) (V (main_arg14 : DevRef τ sig)) (V (main_arg15 : DevRef τ sig)) (V (main_arg16 : DevRef τ sig))
          (V (main_arg17 : DevRef τ sig)) (V (main_arg18 : DevRef τ sig)) (V (main_arg19 : DevRef τ sig)) := by
  have h52 : after s5 (after s4 (after s3 (after s2 (after s1 V)))) (main_v52 : DevRef τ sig)
      = Term.userLayer (Term.userLayer (Term.rows (V (main_arg3 : DevRef τ sig)) (V (main_arg0 : DevRef τ sig))) (transpose S128x128 [1, 0] (V (main_arg12 : DevRef τ sig)) transposes_S128x128_S128x128_1_0) (V (main_arg13 : DevRef τ sig)))
          (transpose S128x128 [1, 0] (V (main_arg12 : DevRef τ sig)) transposes_S128x128_S128x128_1_0) (V (main_arg13 : DevRef τ sig)) := by
    simp (disch := decide) only [keep1', keep2', keep3', keep4', keep5', s1_v6', s1_v13', s1_v20', s2_v26', s3_v36', s3_v46',
      s4_v52', s5_v62']
  have h62 : after s5 (after s4 (after s3 (after s2 (after s1 V)))) (main_v62 : DevRef τ sig)
      = Term.crossStep
          (Term.crossStep (Term.rows (V (main_arg4 : DevRef τ sig)) (V (main_arg1 : DevRef τ sig))) (Term.rows (V (main_arg5 : DevRef τ sig)) (V (main_arg1 : DevRef τ sig)))
            (V (main_arg6 : DevRef τ sig)) (V (main_arg7 : DevRef τ sig)) (V (main_arg10 : DevRef τ sig)))
          (Term.crossStep (Term.rows (V (main_arg4 : DevRef τ sig)) (V (main_arg1 : DevRef τ sig))) (Term.rows (V (main_arg5 : DevRef τ sig)) (V (main_arg1 : DevRef τ sig)))
            (V (main_arg8 : DevRef τ sig)) (V (main_arg9 : DevRef τ sig)) (V (main_arg11 : DevRef τ sig)))
          (V (main_arg6 : DevRef τ sig)) (V (main_arg7 : DevRef τ sig)) (V (main_arg10 : DevRef τ sig)) := by
    simp (disch := decide) only [keep1', keep2', keep3', keep4', keep5', s1_v6', s1_v13', s1_v20', s2_v26', s3_v36', s3_v46',
      s4_v52', s5_v62']
  rw [ops_eq, after_append, after_append, after_append, after_append, after_append, s6_v92, h52, h62]
  simp (disch := decide) only [keep1', keep2', keep3', keep4', keep5']
  rfl

/-- On every device, at any float instance, from any memory with zero counters: every weakly fair execution of the
    reference's @main terminates with its first result at `Term.out` of the arguments' launch contents and every
    argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v92) = Term.out (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun _ h c => ⟨(h c main_v92).trans (out_eq _),
      (h c main_arg0).trans (arg_kept _ (by decide)),
      (h c main_arg1).trans (arg_kept _ (by decide)),
      (h c main_arg2).trans (arg_kept _ (by decide)),
      (h c main_arg3).trans (arg_kept _ (by decide)),
      (h c main_arg4).trans (arg_kept _ (by decide)),
      (h c main_arg5).trans (arg_kept _ (by decide)),
      (h c main_arg6).trans (arg_kept _ (by decide)),
      (h c main_arg7).trans (arg_kept _ (by decide)),
      (h c main_arg8).trans (arg_kept _ (by decide)),
      (h c main_arg9).trans (arg_kept _ (by decide)),
      (h c main_arg10).trans (arg_kept _ (by decide)),
      (h c main_arg11).trans (arg_kept _ (by decide)),
      (h c main_arg12).trans (arg_kept _ (by decide)),
      (h c main_arg13).trans (arg_kept _ (by decide)),
      (h c main_arg14).trans (arg_kept _ (by decide)),
      (h c main_arg15).trans (arg_kept _ (by decide)),
      (h c main_arg16).trans (arg_kept _ (by decide)),
      (h c main_arg17).trans (arg_kept _ (by decide)),
      (h c main_arg18).trans (arg_kept _ (by decide)),
      (h c main_arg19).trans (arg_kept _ (by decide))⟩)
    (run_all m ρ)

end Cert.ReferenceIdeal.Run

end
-- ==== Proof.lean ====
/-
  A recommender's scoring network over 16384 samples: three embedding rows per sample (user, item, head entity) are
  gathered from their tables; the user's row passes two dense layers with the leaky rectifier, the item's and head
  entity's rows two cross-compress steps; the two results, set side by side, pass three more dense layers down to one
  number per sample.

  The kernel computes the network on blocks of 1024 samples, its weight matrices transposed and recast on the host
  beforehand; the reference computes it on the whole batch. On the extended reals a change of float format is the
  identity, a matrix product into a zero accumulator is the plain sum of products, and the kernel's rectifier (tested
  with 0 < x) is the reference's (tested with 0 ≤ x) because the slope times 0 is 0. So both programs compute, for every
  sample, the same function of the sample's three rows (CrossMlp.final): the reference by its chain read at an entry
  (RefRows), the kernel by its stored block read at a row (KernelRows), its sixteen blocks tiling the result
  (KernelArray), and the host lines around the region (KernelRun, Bridge). No law beyond 0 + x = x and c * 0 = 0 is used,
  so the precondition is never opened. The second result is the argument rec_target, returned as it came.
-/
import proofs.«111562_j21268678050244_1_alg».proof.Defs
import proofs.«111562_j21268678050244_1_alg».proof.Proof.Gen.Kernel
import proofs.«111562_j21268678050244_1_alg».proof.Proof.Gen.Kernel.Frame
import proofs.«111562_j21268678050244_1_alg».proof.Proof.Gen.KernelIdeal
import proofs.«111562_j21268678050244_1_alg».proof.Proof.Gen.KernelIdeal.Frame
import proofs.«111562_j21268678050244_1_alg».proof.Proof.Gen.ReferenceIdeal
import proofs.«111562_j21268678050244_1_alg».proof.Proof.Gen.Pre_finite_inputs
import proofs.«111562_j21268678050244_1_alg».proof.Proof.KernelRun
import proofs.«111562_j21268678050244_1_alg».proof.Proof.Bridge
import proofs.«111562_j21268678050244_1_alg».proof.Proof.RefRun
import Idealize.ShloMosaic.Adequacy
import Idealize.ShloMosaic.Init

noncomputable section

namespace Cert.Proof

open Idealize.ShloMosaic Idealize.SL.Sem

/-- The printed kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.Run.run (F := Ideal) m ρ)

/-- The ideal pass rewrote nothing. -/
theorem preserves : Cert.preserves_Kernel_KernelIdeal := trivial

/-- From memories agreeing on the arguments both idealized programs end with the network of every sample as their first
    result and rec_target as their second. -/
theorem algebraic : Cert.algebraic_KernelIdeal_ReferenceIdeal := by
  intro m ρ m' ρ' _ hagree
  refine ⟨fun c => Cert.KernelIdeal.Array.vecNet m c,
    fun c => m ((c.tc : Thread Cert.KernelIdeal.nD Cert.KernelIdeal.τ).loc Cert.KernelIdeal.main_arg2), ?_, ?_⟩
  · refine (θ_run Cert.KernelIdeal.defs _ _).mono (fun r h c => ?_) (Cert.KernelIdeal.Array.run m ρ)
    obtain ⟨h0, hk⟩ := h c
    exact ⟨h0, hk.2.2.1, hk⟩
  · refine (θ_run Cert.ReferenceIdeal.defs _ _).mono (fun r h c => ?_) (Cert.ReferenceIdeal.Run.run (F := Ideal) m' ρ')
    obtain ⟨e0, e1, e2, e3, e4, e5, e6, e7, e8, e9, e10, e11, e12, e13, e14, e15, e16, e17, e18, e19⟩ := hagree c
    obtain ⟨h0, hk⟩ := h c
    refine ⟨?_, hk.2.2.1.trans e2, hk⟩
    rw [h0, e0, e1, e3, e4, e5, e6, e7, e8, e9, e10, e11, e12, e13, e14, e15, e16, e17, e18, e19]
    exact (Cert.KernelIdeal.Bridge.vecNet_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
